-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x128 : Shape := ⟨2, ![30000, 128]⟩
abbrev S32x30000 : Shape := ⟨2, ![32, 30000]⟩
abbrev S128x256 : Shape := ⟨2, ![128, 256]⟩
abbrev S128 : Shape := ⟨1, ![128]⟩
abbrev S32 : Shape := ⟨1, ![32]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S32x30000 : S_.BroadcastsInDim S32x30000 (![] : Fin 0 → Fin S32x30000.rank)
  reducesTo_S32x30000_S_d0_1 : S32x30000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_arg4 : IVec S32 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 4294937296#32
  let main_v19 : IVec S32 32 := broadcastInDim S32 ![] bcast_S_S32 main_c_6
  let main_v20 : IVec S32 1 := cmpi .sge main_arg4 main_v19
  let main_c_7 : IVec S_ 1 := constantI S_ 1 1#1
  let main_v21 : IVec S_ 1 := (fun x v => Host.reduce IntOp.andi x v reducesTo_S32_S_d0 h_S_) main_v20 main_c_7
  let main_v22 : IVec S_ 1 := andi main_v18 main_v21
  let main_c_8 : IVec S_ 32 := constantI S_ 32 30000#32
  let main_v23 : IVec S32 32 := broadcastInDim S32 ![] bcast_S_S32 main_c_8
  let main_v24 : IVec S32 1 := cmpi .slt main_arg4 main_v23
  let main_c_9 : IVec S_ 1 := constantI S_ 1 1#1
  let main_v25 : IVec S_ 1 := (fun x v => Host.reduce IntOp.andi x v reducesTo_S32_S_d0 h_S_) main_v24 main_c_9
  let main_v26 : IVec S_ 1 := andi main_v22 main_v25
  main_v26

def fn {F : FTy → Type} [FloatOps F] (main_arg0 : FVec F S30000x128 .f32) (main_arg1 : FVec F S32x30000 .f32) (main_arg2 : FVec F S128x256 .f32) (main_arg3 : FVec F S128 .f32) (main_arg4 : IVec S32 32) : IVec S_ 1 :=
  let main_v0 : FVec F S30000x128 .f32 := Host.absf main_arg0
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S32x30000 .f32 := Host.absf main_arg1
  let main_cst_0 : FVec F S_ .f32 := constant S_ .f32 0x7F800000#32
  let main_v5 : FVec F S32x30000 .f32 := broadcastInDim S32x30000 ![] bcast_S_S32x30000 main_cst_0
  let main_v6 : IVec S32x30000 1 := cmpf .olt main_v4 main_v5
  let main_c_1 : IVec S_ 1 := constantI S_ 1 1#1
  let main_v7 : IVec S_ 1 := (fun x v => Host.reduce IntOp.andi x v reducesTo_S32x30000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S30000x128 : Shape := ⟨2, ![30000, 128]⟩
abbrev S32x30000 : Shape := ⟨2, ![32, 30000]⟩
abbrev S128x256 : Shape := ⟨2, ![128, 256]⟩
abbrev S128 : Shape := ⟨1, ![128]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x128 : Shape := ⟨2, ![32, 128]⟩
abbrev S128x128 : Shape := ⟨2, ![128, 128]⟩
abbrev S1x128 : Shape := ⟨2, ![1, 128]⟩
abbrev S1875x16x128 : Shape := ⟨3, ![1875, 16, 128]⟩
abbrev S1875x128 : Shape := ⟨2, ![1875, 128]⟩
abbrev S1874x128 : Shape := ⟨2, ![1874, 128]⟩
abbrev S1875 : Shape := ⟨1, ![1875]⟩
abbrev S1875x1 : Shape := ⟨2, ![1875, 1]⟩
abbrev S32x16x1875 : Shape := ⟨3, ![32, 16, 1875]⟩
abbrev S16x32x1875 : Shape := ⟨3, ![16, 32, 1875]⟩
abbrev S16x1875x128 : Shape := ⟨3, ![16, 1875, 128]⟩
abbrev S1x32x1875 : Shape := ⟨3, ![1, 32, 1875]⟩
abbrev S1x1875x128 : Shape := ⟨3, ![1, 1875, 128]⟩
abbrev S32x1875 : Shape := ⟨2, ![32, 1875]⟩

abbrev nBuf : Space → Nat
  | .hbm => 103
  | .vmem => 6
  | .smem => 0
  | _ => 0

abbrev bufTy : (tb : Table) → Fin (tcTables nBuf tb) → BufTy
  | .hbm, ⟨0, _⟩ => ⟨S30000x128, .f32⟩
  | .hbm, ⟨1, _⟩ => ⟨S32x30000, .f32⟩
  | .hbm, ⟨2, _⟩ => ⟨S128x256, .f32⟩
  | .hbm, ⟨3, _⟩ => ⟨S128, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S1, .i32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S1x1, .i32⟩
  | .hbm, ⟨18, _⟩ => ⟨S32x1, .i32⟩
  | .hbm, ⟨19, _⟩ => ⟨S32x1, .i1⟩
  | .hbm, ⟨20, _⟩ => ⟨S32x1, .i1⟩
  | .hbm, ⟨21, _⟩ => ⟨S_, .i1⟩
  | .hbm, ⟨22, _⟩ => ⟨S32, .i1⟩
  | .hbm, ⟨23, _⟩ => ⟨S32x128, .f32⟩
  | .hbm, ⟨24, _⟩ => ⟨S32x128, .i1⟩
  | .hbm, ⟨25, _⟩ => ⟨S_, .f32⟩
  | .hbm, ⟨26, _⟩ => ⟨S32x128, .f32⟩
  | .hbm, ⟨27, _⟩ => ⟨S32x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S32x128, .f32⟩
  | .hbm, ⟨32, _⟩ => ⟨S_, .f32⟩
  | .hbm, ⟨33, _⟩ => ⟨S32x128, .f32⟩
  | .hbm, ⟨34, _⟩ => ⟨S32x128, .f32⟩
  | .hbm, ⟨35, _⟩ => ⟨S128x128, .f32⟩
  | .hbm, ⟨36, _⟩ => ⟨S1x128, .f32⟩
  | .hbm, ⟨37, _⟩ => ⟨S1875x16x128, .f32⟩
  | .hbm, ⟨38, _⟩ => ⟨S_, .f32⟩
  | .hbm, ⟨39, _⟩ => ⟨S1875x128, .f32⟩
  | .hbm, ⟨40, _⟩ => ⟨S1874x128, .f32⟩
  | .hbm, ⟨41, _⟩ => ⟨S1x128, .f32⟩
  | .hbm, ⟨42, _⟩ => ⟨S1875x128, .f32⟩
  | .hbm, ⟨43, _⟩ => ⟨S1875x128, .f32⟩
  | .hbm, ⟨44, _⟩ => ⟨S_, .f32⟩
  | .hbm, ⟨45, _⟩ => ⟨S1875x128, .f32⟩
  | .hbm, ⟨46, _⟩ => ⟨S1875x128, .f32⟩
  | .hbm, ⟨47, _⟩ => ⟨S1875, .i32⟩
  | .hbm, ⟨48, _⟩ => ⟨S_, .i32⟩
  | .hbm, ⟨49, _⟩ => ⟨S1875, .i32⟩
  | .hbm, ⟨50, _⟩ => ⟨S1875, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S1875, .i32⟩
  | .hbm, ⟨58, _⟩ => ⟨S1875, .i32⟩
  | .hbm, ⟨59, _⟩ => ⟨S_, .i32⟩
  | .hbm, ⟨60, _⟩ => ⟨S1875, .i32⟩
  | .hbm, ⟨61, _⟩ => ⟨S1875, .i1⟩
  | .hbm, ⟨62, _⟩ => ⟨S_, .i32⟩
  | .hbm, ⟨63, _⟩ => ⟨S1875, .i32⟩
  | .hbm, ⟨64, _⟩ => ⟨S1875, .i1⟩
  | .hbm, ⟨65, _⟩ => ⟨S_, .i32⟩
  | .hbm, ⟨66, _⟩ => ⟨S_, .i1⟩
  | .hbm, ⟨67, _⟩ => ⟨S1875, .i1⟩
  | .hbm, ⟨68, _⟩ => ⟨S1875, .i1⟩
  | .hbm, ⟨69, _⟩ => ⟨S1875, .i1⟩
  | .hbm, ⟨70, _⟩ => ⟨S1875, .i32⟩
  | .hbm, ⟨71, _⟩ => ⟨S1875, .i32⟩
  | .hbm, ⟨72, _⟩ => ⟨S1875, .i32⟩
  | .hbm, ⟨73, _⟩ => ⟨S_, .i32⟩
  | .hbm, ⟨74, _⟩ => ⟨S1875, .i32⟩
  | .hbm, ⟨75, _⟩ => ⟨S1875, .i1⟩
  | .hbm, ⟨76, _⟩ => ⟨S_, .i32⟩
  | .hbm, ⟨77, _⟩ => ⟨S1875, .i32⟩
  | .hbm, ⟨78, _⟩ => ⟨S1875, .i32⟩
  | .hbm, ⟨79, _⟩ => ⟨S1875, .i32⟩
  | .hbm, ⟨80, _⟩ => ⟨S1875x1, .i32⟩
  | .hbm, ⟨81, _⟩ => ⟨S1, .i32⟩
  | .hbm, ⟨82, _⟩ => ⟨S_, .i32⟩
  | .hbm, ⟨83, _⟩ => ⟨S1875x1, .i32⟩
  | .hbm, ⟨84, _⟩ => ⟨S1875x1, .i1⟩
  | .hbm, ⟨85, _⟩ => ⟨S1x1, .i32⟩
  | .hbm, ⟨86, _⟩ => ⟨S1875x1, .i32⟩
  | .hbm, ⟨87, _⟩ => ⟨S1875x1, .i1⟩
  | .hbm, ⟨88, _⟩ => ⟨S1875x1, .i1⟩
  | .hbm, ⟨89, _⟩ => ⟨S_, .i1⟩
  | .hbm, ⟨90, _⟩ => ⟨S1875, .i1⟩
  | .hbm, ⟨91, _⟩ => ⟨S1875x128, .f32⟩
  | .hbm, ⟨92, _⟩ => ⟨S1875x128, .i1⟩
  | .hbm, ⟨93, _⟩ => ⟨S_, .f32⟩
  | .hbm, ⟨94, _⟩ => ⟨S1875x128, .f32⟩
  | .hbm, ⟨95, _⟩ => ⟨S1875x128, .f32⟩
  | .hbm, ⟨96, _⟩ => ⟨S1875x128, .f32⟩
  | .hbm, ⟨97, _⟩ => ⟨S1875x128, .f32⟩
  | .hbm, ⟨98, _⟩ => ⟨S1875x128, .f32⟩
  | .hbm, ⟨99, _⟩ => ⟨S32x16x1875, .f32⟩
  | .hbm, ⟨100, _⟩ => ⟨S16x32x1875, .f32⟩
  | .hbm, ⟨101, _⟩ => ⟨S16x1875x128, .f32⟩
  | .hbm, ⟨102, _⟩ => ⟨S30000x128, .f32⟩
  | .local _ .vmem, ⟨0, _⟩ => ⟨S1x32x1875, .f32⟩
  | .local _ .vmem, ⟨1, _⟩ => ⟨S1x32x1875, .f32⟩
  | .local _ .vmem, ⟨2, _⟩ => ⟨S1875x128, .f32⟩
  | .local _ .vmem, ⟨3, _⟩ => ⟨S32x128, .f32⟩
  | .local _ .vmem, ⟨4, _⟩ => ⟨S1x1875x128, .f32⟩
  | .local _ .vmem, ⟨5, _⟩ => ⟨S1x1875x128, .f32⟩
  | _, _ => ⟨S30000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_v19 : Ref sig .tc := ⟨.hbm, 50, rfl⟩
abbrev main_c_2 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v20 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1875 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1875x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1875x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  h_S_ : 0 < S_.numel
  bcast_S32_S32x128_0 : S32.BroadcastsInDim S32x128 (![0] : Fin 1 → Fin S32x128.rank)
  bcast_S_S32x128 : S_.BroadcastsInDim S32x128 (![] : Fin 0 → Fin S32x128.rank)
  slices_S128x256_S128x128_0_0 : S128x256.Slices ![0, 0] S128x128
  slices_S128x256_S128x128_0_128 : S128x256.Slices ![0, 128] S128x128
  transposes_S128x128_S128x128_1_0 : S128x128.Transposes [1, 0] S128x128
  shapeCasts_S128_S1x128 : S128.ShapeCasts S1x128
  shapeCasts_S30000x128_S1875x16x128 : S30000x128.ShapeCasts S1875x16x128
  reducesTo_S1875x16x128_S1875x128_d1 : S1875x16x128.ReducesTo [1] S1875x128
  slices_S1875x128_S1874x128_1_0 : S1875x128.Slices ![1, 0] S1874x128
  slices_S1875x128_S1x128_0_0 : S1875x128.Slices ![0, 0] S1x128
  concatenates_S1874x128_S1x128_S1875x128_d0 : Shape.Concatenates [S1874x128, S1x128] S1875x128 0
  bcast_S_S1875x128 : S_.BroadcastsInDim S1875x128 (![] : Fin 0 → Fin S1875x128.rank)
  bcast_S_S1875 : S_.BroadcastsInDim S1875 (![] : Fin 0 → Fin S1875.rank)
  bcast_S1875_S1875x1_0 : S1875.BroadcastsInDim S1875x1 (![0] : Fin 1 → Fin S1875x1.rank)
  bcast_S_S1875x1 : S_.BroadcastsInDim S1875x1 (![] : Fin 0 → Fin S1875x1.rank)
  bcast_S1x1_S1875x1_0_1 : S1x1.BroadcastsInDim S1875x1 (![0, 1] : Fin 2 → Fin S1875x1.rank)
  reducesTo_S1875x1_S1875_d1 : S1875x1.ReducesTo [1] S1875
  bcast_S1875_S1875x128_0 : S1875.BroadcastsInDim S1875x128 (![0] : Fin 1 → Fin S1875x128.rank)
  bcast_S1x128_S1875x128_0_1 : S1x128.BroadcastsInDim S1875x128 (![0, 1] : Fin 2 → Fin S1875x128.rank)
  shapeCasts_S32x30000_S32x16x1875 : S32x30000.ShapeCasts S32x16x1875
  transposes_S32x16x1875_S16x32x1875_1_0_2 : S32x16x1875.Transposes [1, 0, 2] S16x32x1875
  inb_S1x32x1875_S1x32x1875_0_0_0 : ∀ a, (![0, 0, 0] : Fin 3 → Nat) a + S1x32x1875.size a ≤ S1x32x1875.size a
  h_S1x32x1875 : 0 < S1x32x1875.numel
  shapeCasts_S1x32x1875_S32x1875 : S1x32x1875.ShapeCasts S32x1875
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1875x128_S1875x128_0_0 : ∀ a, (![0, 0] : Fin 2 → Nat) a + S1875x128.size a ≤ S1875x128.size a
  h_S1875x128 : 0 < S1875x128.numel
  shapeCasts_S1875x128_S1875x128 : S1875x128.ShapeCasts S1875x128
  inb_S1x1875x128_S1x1875x128_0_0_0 : ∀ a, (![0, 0, 0] : Fin 3 → Nat) a + S1x1875x128.size a ≤ S1x1875x128.size a
  h_S1x1875x128 : 0 < S1x1875x128.numel
  shapeCasts_S1x1875x128_S1875x128 : S1x1875x128.ShapeCasts S1875x128
  shapeCasts_S1875x128_S1x1875x128 : S1875x128.ShapeCasts S1x1875x128
  shapeCasts_S16x1875x128_S30000x128 : S16x1875x128.ShapeCasts S30000x128
  gather_S30000x128_S32x1_S32x128_1_0_n_n_0_1_1128_wf : GatherDims.WF S30000x128 S32x1 S32x128 [1] [0] [] [0] [] 1 ![1, 128]
  dot_S32x128_S128x128_S32x128_1_0_0_1_n_n_wf : DotDims.WF S32x128 S128x128 S32x128 [1] [0] [0] [1] [] []
  gather_S1875x128_S1875x1_S1875x128_1_0_n_n_0_1_1128_wf : GatherDims.WF S1875x128 S1875x1 S1875x128 [1] [0] [] [0] [] 1 ![1, 128]
  dot_S1875x128_S128x128_S1875x128_1_0_0_1_n_n_wf : DotDims.WF S1875x128 S128x128 S1875x128 [1] [0] [0] [1] [] []
  dot_S32x1875_S32x128_S1875x128_0_0_1_1_n_n_wf : DotDims.WF S32x1875 S32x128 S1875x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1875.size a ≤ S16x32x1875.size a
  hwx0_0 : ∀ i : grid0.Coords, EltTy.bits .f32 = 32 ∨ (Rect.block (s := S16x32x1875) S1x32x1875.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1875x128.size a ≤ S1875x128.size a
  hwx0_1 : ∀ i : grid0.Coords, EltTy.bits .f32 = 32 ∨ (Rect.block (s := S1875x128) S1875x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1875x128.size a ≤ S16x1875x128.size a
  hwx0_3 : ∀ i : grid0.Coords, EltTy.bits .f32 = 32 ∨ (Rect.block (s := S16x1875x128) S1x1875x128.size (cc0_transform_3 i) (hinb0_3 i)).WholeWords (EltTy.packing .f32)

variable [Facts₀]

def gather_S30000x128_S32x1_S32x128_1_0_n_n_0_1_1128 : GatherDims S30000x128 S32x1 S32x128 where
  offsetDims := [1]
  collapsedSliceDims := [0]
  operandBatchingDims := []
  startIndicesBatchingDims := []
  startIndexMap := [0]
  indexVectorDim := 1
  sliceSizes := ![1, 128]
  wf := gather_S30000x128_S32x1_S32x128_1_0_n_n_0_1_1128_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def gather_S1875x128_S1875x1_S1875x128_1_0_n_n_0_1_1128 : GatherDims S1875x128 S1875x1 S1875x128 where
  offsetDims := [1]
  collapsedSliceDims := [0]
  operandBatchingDims := []
  startIndicesBatchingDims := []
  startIndexMap := [0]
  indexVectorDim := 1
  sliceSizes := ![1, 128]
  wf := gather_S1875x128_S1875x1_S1875x128_1_0_n_n_0_1_1128_wf
def dot_S1875x128_S128x128_S1875x128_1_0_0_1_n_n : DotDims S1875x128 S128x128 S1875x128 where
  lhsContracting := [1]
  rhsContracting := [0]
  lhsNonContracting := [0]
  rhsNonContracting := [1]
  lhsBatch := []
  rhsBatch := []
  wf := dot_S1875x128_S128x128_S1875x128_1_0_0_1_n_n_wf
def dot_S32x1875_S32x128_S1875x128_0_0_1_1_n_n : DotDims S32x1875 S32x128 S1875x128 where
  lhsContracting := [0]
  rhsContracting := [0]
  lhsNonContracting := [1]
  rhsNonContracting := [1]
  lhsBatch := []
  rhsBatch := []
  wf := dot_S32x1875_S32x128_S1875x128_0_0_1_1_n_n_wf

abbrev win0_0 : Pipeline.Window sig grid0 :=
  Pipeline.Window.ofSpec (Memref.whole main_v26) S1x32x1875.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1875x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x1875x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S30000x128 : Shape := ⟨2, ![30000, 128]⟩
abbrev S32x30000 : Shape := ⟨2, ![32, 30000]⟩
abbrev S128x256 : Shape := ⟨2, ![128, 256]⟩
abbrev S128 : Shape := ⟨1, ![128]⟩
abbrev S32 : Shape := ⟨1, ![32]⟩
abbrev S_ : Shape := ⟨0, ![]⟩
abbrev S32x1 : Shape := ⟨2, ![32, 1]⟩
abbrev S32x128 : Shape := ⟨2, ![32, 128]⟩
abbrev S1x32x128 : Shape := ⟨3, ![1, 32, 128]⟩
abbrev S30000x32 : Shape := ⟨2, ![30000, 32]⟩
abbrev S30000x32x1 : Shape := ⟨3, ![30000, 32, 1]⟩
abbrev S30000x32x128 : Shape := ⟨3, ![30000, 32, 128]⟩
abbrev S1x30000x1x128 : Shape := ⟨4, ![1, 30000, 1, 128]⟩
abbrev S32x30000x1x128 : Shape := ⟨4, ![32, 30000, 1, 128]⟩
abbrev S960000x128 : Shape := ⟨2, ![960000, 128]⟩
abbrev S128x128 : Shape := ⟨2, ![128, 128]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S30000x128, .f32⟩
  | .hbm, ⟨1, _⟩ => ⟨S32x30000, .f32⟩
  | .hbm, ⟨2, _⟩ => ⟨S128x256, .f32⟩
  | .hbm, ⟨3, _⟩ => ⟨S128, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S32x128, .f32⟩
  | .hbm, ⟨14, _⟩ => ⟨S1x32x128, .f32⟩
  | .hbm, ⟨15, _⟩ => ⟨S30000x32, .f32⟩
  | .hbm, ⟨16, _⟩ => ⟨S30000x32x1, .f32⟩
  | .hbm, ⟨17, _⟩ => ⟨S30000x32x128, .f32⟩
  | .hbm, ⟨18, _⟩ => ⟨S30000x32x128, .f32⟩
  | .hbm, ⟨19, _⟩ => ⟨S30000x32x128, .f32⟩
  | .hbm, ⟨20, _⟩ => ⟨S1x30000x1x128, .f32⟩
  | .hbm, ⟨21, _⟩ => ⟨S32x30000x1x128, .f32⟩
  | .hbm, ⟨22, _⟩ => ⟨S960000x128, .f32⟩
  | .hbm, ⟨23, _⟩ => ⟨S30000x32x128, .f32⟩
  | .hbm, ⟨24, _⟩ => ⟨S128x128, .f32⟩
  | .hbm, ⟨25, _⟩ => ⟨S128x128, .f32⟩
  | .hbm, ⟨26, _⟩ => ⟨S30000x32x128, .f32⟩
  | .hbm, ⟨27, _⟩ => ⟨S30000x32x128, .f32⟩
  | .hbm, ⟨28, _⟩ => ⟨S30000x32x128, .f32⟩
  | .hbm, ⟨29, _⟩ => ⟨S1x1x128, .f32⟩
  | .hbm, ⟨30, _⟩ => ⟨S30000x32x128, .f32⟩
  | .hbm, ⟨31, _⟩ => ⟨S30000x32x128, .f32⟩
  | .hbm, ⟨32, _⟩ => ⟨S_, .f32⟩
  | .hbm, ⟨33, _⟩ => ⟨S30000x128, .f32⟩
  | .hbm, ⟨34, _⟩ => ⟨S_, .f32⟩
  | .hbm, ⟨35, _⟩ => ⟨S30000x128, .f32⟩
  | .hbm, ⟨36, _⟩ => ⟨S30000x128, .f32⟩
  | _, _ => ⟨S30000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x128_S1x32x128_1_2 : S32x128.BroadcastsInDim S1x32x128 (![1, 2] : Fin 2 → Fin S1x32x128.rank)
  transposes_S32x30000_S30000x32_1_0 : S32x30000.Transposes [1, 0] S30000x32
  bcast_S30000x32_S30000x32x1_0_1 : S30000x32.BroadcastsInDim S30000x32x1 (![0, 1] : Fin 2 → Fin S30000x32x1.rank)
  bcast_S1x32x128_S30000x32x128_0_1_2 : S1x32x128.BroadcastsInDim S30000x32x128 (![0, 1, 2] : Fin 3 → Fin S30000x32x128.rank)
  bcast_S30000x32x1_S30000x32x128_0_1_2 : S30000x32x1.BroadcastsInDim S30000x32x128 (![0, 1, 2] : Fin 3 → Fin S30000x32x128.rank)
  shapeCasts_S30000x128_S1x30000x1x128 : S30000x128.ShapeCasts S1x30000x1x128
  bcast_S1x30000x1x128_S32x30000x1x128_0_1_2_3 : S1x30000x1x128.BroadcastsInDim S32x30000x1x128 (![0, 1, 2, 3] : Fin 4 → Fin S32x30000x1x128.rank)
  shapeCasts_S32x30000x1x128_S960000x128 : S32x30000x1x128.ShapeCasts S960000x128
  shapeCasts_S960000x128_S30000x32x128 : S960000x128.ShapeCasts S30000x32x128
  slices_S128x256_S128x128_0_0 : S128x256.Slices ![0, 0] S128x128
  slices_S128x256_S128x128_0_128 : S128x256.Slices ![0, 128] S128x128
  bcast_S128_S1x1x128_2 : S128.BroadcastsInDim S1x1x128 (![2] : Fin 1 → Fin S1x1x128.rank)
  bcast_S1x1x128_S30000x32x128_0_1_2 : S1x1x128.BroadcastsInDim S30000x32x128 (![0, 1, 2] : Fin 3 → Fin S30000x32x128.rank)
  reducesTo_S30000x32x128_S30000x128_d1 : S30000x32x128.ReducesTo [1] S30000x128
  h_S_ : 0 < S_.numel
  bcast_S_S30000x128 : S_.BroadcastsInDim S30000x128 (![] : Fin 0 → Fin S30000x128.rank)
  gather_S30000x128_S32x1_S32x128_1_0_n_n_0_1_1128_wf : GatherDims.WF S30000x128 S32x1 S32x128 [1] [0] [] [0] [] 1 ![1, 128]
  dot_S30000x32x128_S128x128_S30000x32x128_2_1_01_0_n_n_wf : DotDims.WF S30000x32x128 S128x128 S30000x32x128 [2] [1] [0, 1] [0] [] []

variable [Facts₀]

def gather_S30000x128_S32x1_S32x128_1_0_n_n_0_1_1128 : GatherDims S30000x128 S32x1 S32x128 where
  offsetDims := [1]
  collapsedSliceDims := [0]
  operandBatchingDims := []
  startIndicesBatchingDims := []
  startIndexMap := [0]
  indexVectorDim := 1
  sliceSizes := ![1, 128]
  wf := gather_S30000x128_S32x1_S32x128_1_0_n_n_0_1_1128_wf
def dot_S30000x32x128_S128x128_S30000x32x128_2_1_01_0_n_n : DotDims S30000x32x128 S128x128 S30000x32x128 where
  lhsContracting := [2]
  rhsContracting := [1]
  lhsNonContracting := [0, 1]
  rhsNonContracting := [0]
  lhsBatch := []
  rhsBatch := []
  wf := dot_S30000x32x128_S128x128_S30000x32x128_2_1_01_0_n_n_wf

class Facts : Prop extends Facts₀ where

variable [Facts]
-- ==== Proof.Spec.lean ====
/-
  The mathematics of the two programs, index by index, on the extended reals.

  Inputs: embeddings `x0 : [30000, 128]`, distances `x1 : [32, 30000]`, a weight `W : [128, 256]` whose left half
  acts on the message branch and whose right half acts on the self branch, a bias `b : [128]`, and 32 anchor
  indices `x4`.  An anchor index is read as a signed word, a negative one is moved up by 30000, and the row it
  selects is clamped into `[0, 29999]`: `anchorRow`.

  The reference computes, for node `n` and output column `k`, the mean over the 32 anchors `j` of
  `∑_d (A j d · x1 j n) · W k d  +  ∑_d x0 ((32 n + j) mod 30000) d · W k (128 + d)  +  b k`  (`refOut`).

  The kernel pushes the mean inside the two linear maps (`kernelOut`): the message branch becomes
  `∑_a x1 a n · ((∑_d A a d · W k d) / 32)`, and the self branch depends on `n` only through `n mod 1875`,
  because the 32 consecutive rows starting at `32 n mod 30000` are two consecutive 16-row blocks, the blocks
  `2 p mod 1875` and its successor for `p = n mod 1875` (`selfMean`, `selfOut`).
-/
import Idealize.ShloMosaic.PureOps.Ideal
import Idealize.ShloMosaic.Lib.ValueIdx

noncomputable section

open scoped BigOperators

namespace Cert.Spec

open Idealize.ShloMosaic Idealize.ShloMosaic.ValueIdx

/-! ## Shapes -/

abbrev TEmb : Shape := ⟨2, ![30000, 128]⟩
abbrev TDist : Shape := ⟨2, ![32, 30000]⟩
abbrev TW : Shape := ⟨2, ![128, 256]⟩
abbrev TB : Shape := ⟨1, ![128]⟩
abbrev TIds : Shape := ⟨1, ![32]⟩
abbrev TAnch : Shape := ⟨2, ![32, 128]⟩
abbrev TPer : Shape := ⟨2, ![1875, 128]⟩
abbrev TDistR : Shape := ⟨3, ![16, 32, 1875]⟩
abbrev TOutR : Shape := ⟨3, ![16, 1875, 128]⟩

/-! ## Index arithmetic -/

/-- Column `d` of the left half of the weight. -/
def colL (d : Fin 128) : Fin 256 := ⟨d.val, by have := d.isLt; omega⟩
/-- Column `d` of the right half of the weight. -/
def colR (d : Fin 128) : Fin 256 := ⟨128 + d.val, by have := d.isLt; omega⟩
/-- Row `t` of the 16-row block `q` of the embeddings. -/
def blockRow (q : Fin 1875) (t : Fin 16) : Fin 30000 := ⟨16 * q.val + t.val, by have := q.isLt; have := t.isLt; omega⟩
/-- The block the window of position `p` starts with: `2 p mod 1875`. -/
def perm (p : Fin 1875) : Fin 1875 := ⟨(2 * p.val) % 1875, Nat.mod_lt _ (by norm_num)⟩
/-- The cyclic successor of a block. -/
def nextBlk (q : Fin 1875) : Fin 1875 := ⟨(q.val + 1) % 1875, Nat.mod_lt _ (by norm_num)⟩
/-- Node `1875 r + p`: position `p` of repetition `r`. -/
def rowOf (r : Fin 16) (p : Fin 1875) : Fin 30000 := ⟨1875 * r.val + p.val, by have := r.isLt; have := p.isLt; omega⟩
/-- The repetition a node lies in. -/
def repOf (n : Fin 30000) : Fin 16 := ⟨n.val / 1875, by have := n.isLt; omega⟩
/-- A node's position inside its repetition. -/
def posOf (n : Fin 30000) : Fin 1875 := ⟨n.val % 1875, Nat.mod_lt _ (by norm_num)⟩
/-- The row of the embeddings that node `n` pairs with anchor `j` in the self branch. -/
def selfRow (n : Fin 30000) (j : Fin 32) : Fin 30000 := ⟨(32 * n.val + j.val) % 30000, Nat.mod_lt _ (by norm_num)⟩

/-- An anchor index with a negative value moved up by the number of rows. -/
def wrapIdx (w : BitVec 32) : BitVec 32 := Scalar.select (IntOp.cmpi .slt w 0#32) (w + 30000#32) w
/-- The row anchor `a` selects: its wrapped index read signed and clamped into the table. -/
def anchorRow (x4 : TIds.Idx → BitVec 32) (a : Fin 32) : Fin 30000 :=
  ⟨min (wrapIdx (x4 (ix1 a))).toInt.toNat 29999, by omega⟩
/-- The anchors: the selected rows of the embeddings. -/
def anchors (x0 : TEmb.Idx → EReal) (x4 : TIds.Idx → BitVec 32) : TAnch.Idx → EReal :=
  fun i => x0 (ix2 (anchorRow x4 (i 0)) (i 1))

/-! ## The values -/

/-- The divisor `32.0`, as both programs spell it. -/
abbrev c32 : EReal := Ideal.ofBits .f32 0x42000000#32

/-- The sum of the 16 rows of block `q`, in column `d`. -/
def blockSum (x0 : TEmb.Idx → EReal) (q : Fin 1875) (d : Fin 128) : EReal :=
  0 + ∑ t : Fin 16, x0 (ix2 (blockRow q t) d)

/-- The mean of the 32 rows the window of position `p` covers: two consecutive blocks over 32. -/
def selfMean (x0 : TEmb.Idx → EReal) (p : Fin 1875) (d : Fin 128) : EReal :=
  Ideal.div (blockSum x0 (perm p) d + blockSum x0 (nextBlk (perm p)) d) c32

/-- The self branch with the bias, on the period: `mean_self · W₂ᵀ + b`. -/
def selfOut (x0 : TEmb.Idx → EReal) (W : TW.Idx → EReal) (b : TB.Idx → EReal) (p : Fin 1875) (k : Fin 128) : EReal :=
  (∑ d : Fin 128, selfMean x0 p d * W (ix2 k (colR d))) + b (ix1 k)

/-- The anchors through the left half of the weight, over 32. -/
def anchW (A : TAnch.Idx → EReal) (W : TW.Idx → EReal) (a : Fin 32) (k : Fin 128) : EReal :=
  Ideal.div (∑ d : Fin 128, A (ix2 a d) * W (ix2 k (colL d))) c32

/-- What the kernel computes at node `n`, column `k`. -/
def kernelOut (A : TAnch.Idx → EReal) (x0 : TEmb.Idx → EReal) (x1 : TDist.Idx → EReal) (W : TW.Idx → EReal)
    (b : TB.Idx → EReal) (n : Fin 30000) (k : Fin 128) : EReal :=
  (∑ a : Fin 32, x1 (ix2 a n) * anchW A W a k) + selfOut x0 W b (posOf n) k

/-- What the reference computes at node `n`, column `k`. -/
def refOut (A : TAnch.Idx → EReal) (x0 : TEmb.Idx → EReal) (x1 : TDist.Idx → EReal) (W : TW.Idx → EReal)
    (b : TB.Idx → EReal) (n : Fin 30000) (k : Fin 128) : EReal :=
  Ideal.div (0 + ∑ j : Fin 32,
    (((∑ d : Fin 128, (A (ix2 j d) * x1 (ix2 j n)) * W (ix2 k (colL d)))
      + (∑ d : Fin 128, x0 (ix2 (selfRow n j) d) * W (ix2 k (colR d)))) + b (ix1 k))) c32

/-- The kernel's result as an array. -/
def kernelArr (A : TAnch.Idx → EReal) (x0 : TEmb.Idx → EReal) (x1 : TDist.Idx → EReal) (W : TW.Idx → EReal)
    (b : TB.Idx → EReal) : TEmb.Idx → EReal := fun j => kernelOut A x0 x1 W b (j 0) (j 1)

/-- All entries of an array are real numbers. -/
def AllReal {s : Shape} (x : s.Idx → EReal) : Prop := ∀ i, ∃ r : ℝ, x i = (r : EReal)

/-- Every anchor index lies in `[-30000, 30000)` as a signed word. -/
def IdsInRange (x4 : TIds.Idx → BitVec 32) : Prop :=
  ∀ a : Fin 32, -30000 ≤ (x4 (ix1 a)).toInt ∧ (x4 (ix1 a)).toInt < 30000

end Cert.Spec

end
-- ==== Proof.KArgs.lean ====
/-
  The idealized kernel's argument arrays, named at their literal types.
-/
import proofs.«424267_j84043920048504_3_alg».proof.Proof.Gen.KernelIdeal.Frame
import proofs.«424267_j84043920048504_3_alg».proof.Proof.Spec
import Idealize.ShloMosaic.PureOps.Ideal

noncomputable section

namespace Cert.KernelIdeal.Bridge

open Cert.KernelIdeal Cert.KernelIdeal.Gen Idealize.ShloMosaic Idealize.ShloMosaic.TcCoe Idealize.SL.Sem

variable (m : (ℓ : Loc nD τ sig) → Buf (Elt Ideal) ℓ)

/-- The embeddings. -/
abbrev a0 (c : Dev nD) : Cert.Spec.TEmb.Idx → EReal := m ((c.tc : Thread nD τ).loc main_arg0)
/-- The distances. -/
abbrev a1 (c : Dev nD) : Cert.Spec.TDist.Idx → EReal := m ((c.tc : Thread nD τ).loc main_arg1)
/-- The weight. -/
abbrev a2 (c : Dev nD) : Cert.Spec.TW.Idx → EReal := m ((c.tc : Thread nD τ).loc main_arg2)
/-- The bias. -/
abbrev a3 (c : Dev nD) : Cert.Spec.TB.Idx → EReal := m ((c.tc : Thread nD τ).loc main_arg3)
/-- The anchor indices. -/
abbrev a4 (c : Dev nD) : Cert.Spec.TIds.Idx → BitVec 32 := m ((c.tc : Thread nD τ).loc main_arg4)

end Cert.KernelIdeal.Bridge

end
-- ==== Proof.HostStages.lean ====
/-
  The three arrays the region reads, as compositions of the host operations that make them.

  Before the region the program computes, from its arguments alone: the distances reshaped and transposed
  (`distsArr`); the anchors' branch (`anchWArr`): the anchor indices wrapped (`anchorStart`), the rows they select
  gathered and kept where the wrapped index is inside the table (`anchorMask`, `takeAnchors`), multiplied with the
  transposed left half of the weight and divided by 32; and the self branch (`selfOutArr`): the 16-row block sums of
  the embeddings (`blockSums`), each added to its cyclic successor and divided by 32 (`selfBaseArr`), taken at the
  indices `2 p mod 1875` (`permWords`, `permStart`, `permMask`, `takePerm`), multiplied with the transposed right
  half of the weight, plus the bias as a row.  Each definition below is the printed operations of that stretch,
  applied to one another; each theorem says the region finds its array at that composition.
-/
import proofs.«424267_j84043920048504_3_alg».proof.Proof.KArgs
import Idealize.ShloMosaic.Lib.StableHlo.Run

noncomputable section

namespace Cert.KernelIdeal.Stages

open Cert.KernelIdeal Cert.KernelIdeal.Bridge Cert.KernelIdeal.Facts₀ Idealize.ShloMosaic Idealize.ShloMosaic.TcCoe Idealize.SL.Sem
open Idealize.ShloMosaic.StableHlo

/-! ## The distances -/

/-- `[32, 30000]` reshaped to `[32, 16, 1875]` and transposed to `[16, 32, 1875]`. -/
def distsArr (x1 : FVec Ideal S32x30000 .f32) : FVec Ideal S16x32x1875 .f32 :=
  transpose S16x32x1875 [1, 0, 2] (shapeCast S32x16x1875 x1 shapeCasts_S32x30000_S32x16x1875) transposes_S32x16x1875_S16x32x1875_1_0_2

/-! ## The anchors' branch -/

/-- The anchor indices, a negative one moved up by 30000, as `[32, 1]` start indices. -/
def anchorStart (x4 : IVec S32 32) : IVec S32x1 32 :=
  broadcastInDim S32x1 ![0] bcast_S32_S32x1_0
    (select (cmpi .slt x4 (broadcastInDim S32 ![] bcast_S_S32 (constantI S_ 32 0#32)))
      (addi x4 (broadcastInDim S32 ![] bcast_S_S32 (constantI S_ 32 30000#32))) x4)

/-- Per anchor: is its start index inside `[0, 29999]`? -/
def anchorMask (s : IVec S32x1 32) : IVec S32 1 :=
  Host.reduce IntOp.andi
    (andi (cmpi .sge s (broadcastInDim S32x1 ![] bcast_S_S32x1 (constantI S_ 32 0#32)))
      (cmpi .sle s (broadcastInDim S32x1 ![0, 1] bcast_S1x1_S32x1_0_1
        (broadcastInDim S1x1 ![1] bcast_S1_S1x1_1 (constantI S1 32 29999#32)))))
    (constantI S_ 1 1#1) reducesTo_S32x1_S32_d1 h_S_

/-- The selected rows, replaced by the fill pattern where the index is outside the table. -/
def takeAnchors (x0 : FVec Ideal S30000x128 .f32) (x4 : IVec S32 32) : FVec Ideal S32x128 .f32 :=
  select (broadcastInDim S32x128 ![0] bcast_S32_S32x128_0 (anchorMask (anchorStart x4)))
    (Host.gather gather_S30000x128_S32x1_S32x128_1_0_n_n_0_1_1128 x0 (anchorStart x4))
    (broadcastInDim S32x128 ![] bcast_S_S32x128 (constant S_ .f32 0x7FC00000#32))

/-- The anchors times the transposed left half of the weight, over 32. -/
def anchWArr (x0 : FVec Ideal S30000x128 .f32) (x2 : FVec Ideal S128x256 .f32) (x4 : IVec S32 32) :
    FVec Ideal S32x128 .f32 :=
  Host.divf
    (Host.dotGeneral dot_S32x128_S128x128_S32x128_1_0_0_1_n_n none (takeAnchors x0 x4)
      (transpose S128x128 [1, 0] (extractStridedSlice S128x128 ![0, 0] x2 slices_S128x256_S128x128_0_0)
        transposes_S128x128_S128x128_1_0))
    (broadcastInDim S32x128 ![] bcast_S_S32x128 (constant S_ .f32 0x42000000#32))

/-! ## The self branch -/

/-- The sums of the 1875 blocks of 16 consecutive rows. -/
def blockSums (x0 : FVec Ideal S30000x128 .f32) : FVec Ideal S1875x128 .f32 :=
  Host.reduceAdd (shapeCast S1875x16x128 x0 shapeCasts_S30000x128_S1875x16x128) (constant S_ .f32 0x00000000#32)
    reducesTo_S1875x16x128_S1875x128_d1 h_S_

/-- Each block sum plus its cyclic successor's (rows 1 … 1874 followed by row 0), over 32. -/
def selfBaseArr (x0 : FVec Ideal S30000x128 .f32) : FVec Ideal S1875x128 .f32 :=
  Host.divf
    (addf (blockSums x0)
      (concatenate S1875x128 0
        [⟨S1874x128, extractStridedSlice S1874x128 ![1, 0] (blockSums x0) slices_S1875x128_S1874x128_1_0⟩,
         ⟨S1x128, extractStridedSlice S1x128 ![0, 0] (blockSums x0) slices_S1875x128_S1x128_0_0⟩]
        concatenates_S1874x128_S1x128_S1875x128_d0))
    (broadcastInDim S1875x128 ![] bcast_S_S1875x128 (constant S_ .f32 0x42000000#32))

/-- The divisor of the remainder: 1875, or 1 were it zero. -/
def permDiv : IVec S_ 32 :=
  select (cmpi .eq (id (constantI S_ 32 1875#32) : IVec S_ 32) (constantI S_ 32 0#32)) (constantI S_ 32 1#32)
    (id (constantI S_ 32 1875#32) : IVec S_ 32)

/-- The truncated remainder of `2 p` by the divisor. -/
def permRem : IVec S1875 32 :=
  Host.remsi (muli (broadcastInDim S1875 ![] bcast_S_S1875 (constantI S_ 32 2#32)) (iotaInDim S1875 32 0))
    (broadcastInDim S1875 ![] bcast_S_S1875 permDiv)

/-- `2 p mod 1875` as words: the truncated remainder, moved up by the divisor where its sign differs from the
    divisor's and it is not zero. -/
def permWords : IVec S1875 32 :=
  select
    (andi
      (cmpi .ne (cmpi .slt permRem (broadcastInDim S1875 ![] bcast_S_S1875 (constantI S_ 32 0#32)))
        (broadcastInDim S1875 ![] bcast_S_S1875 (cmpi .slt permDiv (constantI S_ 32 0#32))))
      (cmpi .ne permRem (broadcastInDim S1875 ![] bcast_S_S1875 (constantI S_ 32 0#32))))
    (addi permRem (broadcastInDim S1875 ![] bcast_S_S1875 permDiv)) permRem

/-- Those indices, a negative one moved up by 1875, as `[1875, 1]` start indices. -/
def permStart : IVec S1875x1 32 :=
  broadcastInDim S1875x1 ![0] bcast_S1875_S1875x1_0
    (select (cmpi .slt permWords (broadcastInDim S1875 ![] bcast_S_S1875 (constantI S_ 32 0#32)))
      (addi permWords (broadcastInDim S1875 ![] bcast_S_S1875 (constantI S_ 32 1875#32))) permWords)

/-- Per position: is its start index inside `[0, 1874]`? -/
def permMask (s : IVec S1875x1 32) : IVec S1875 1 :=
  Host.reduce IntOp.andi
    (andi (cmpi .sge s (broadcastInDim S1875x1 ![] bcast_S_S1875x1 (constantI S_ 32 0#32)))
      (cmpi .sle s (broadcastInDim S1875x1 ![0, 1] bcast_S1x1_S1875x1_0_1
        (broadcastInDim S1x1 ![1] bcast_S1_S1x1_1 (constantI S1 32 1874#32)))))
    (constantI S_ 1 1#1) reducesTo_S1875x1_S1875_d1 h_S_

/-- The rows of `y` at those indices, replaced by the fill pattern where the index is outside the table. -/
def takePerm (y : FVec Ideal S1875x128 .f32) : FVec Ideal S1875x128 .f32 :=
  select (broadcastInDim S1875x128 ![0] bcast_S1875_S1875x128_0 (permMask permStart))
    (Host.gather gather_S1875x128_S1875x1_S1875x128_1_0_n_n_0_1_1128 y permStart)
    (broadcastInDim S1875x128 ![] bcast_S_S1875x128 (constant S_ .f32 0x7FC00000#32))

/-- The taken means times the transposed right half of the weight, plus the bias as a row. -/
def selfOutArr (x0 : FVec Ideal S30000x128 .f32) (x2 : FVec Ideal S128x256 .f32) (x3 : FVec Ideal S128 .f32) :
    FVec Ideal S1875x128 .f32 :=
  addf
    (Host.dotGeneral dot_S1875x128_S128x128_S1875x128_1_0_0_1_n_n none (takePerm (selfBaseArr x0))
      (transpose S128x128 [1, 0] (extractStridedSlice S128x128 ![0, 128] x2 slices_S128x256_S128x128_0_128)
        transposes_S128x128_S128x128_1_0))
    (broadcastInDim S1875x128 ![0, 1] bcast_S1x128_S1875x128_0_1 (shapeCast S1x128 x3 shapeCasts_S128_S1x128))

/-! ## What the region finds -/

open Cert.KernelIdeal.Gen

variable (m : (ℓ : Loc nD τ sig) → Buf (Elt Ideal) ℓ)

set_option maxHeartbeats 2000000 in
/-- Window 0's array is the reshaped and transposed distances. -/
theorem V26_eq (c : Dev nD) : (V (F := Ideal) m c main_v26 : S16x32x1875.Idx → EReal) = distsArr (a1 m c) := by
  unfold distsArr
  dsimp only [V, V0]
  simp only [hostOps0, hostOps0_1, hostOps0_2, hostOps0_3, hostOps0_4, List.flatten_cons, List.flatten_nil,
    List.append_nil, List.cons_append, List.nil_append]
  after_results_simp
  rfl

set_option maxHeartbeats 2000000 in
/-- Window 2's array is the anchors' branch. -/
theorem V6_eq (c : Dev nD) :
    (V (F := Ideal) m c main_v6 : S32x128.Idx → EReal) = anchWArr (a0 m c) (a2 m c) (a4 m c) := by
  unfold anchWArr takeAnchors anchorMask anchorStart
  dsimp only [V, V0]
  simp only [hostOps0, hostOps0_1, hostOps0_2, hostOps0_3, hostOps0_4, List.flatten_cons, List.flatten_nil,
    List.append_nil, List.cons_append, List.nil_append]
  after_results_simp
  simp only [TRef.toBuf, TRef.ofBuf, cast_eq]

set_option maxHeartbeats 4000000 in
/-- Window 1's array is the self branch. -/
theorem V24_eq (c : Dev nD) :
    (V (F := Ideal) m c main_v24 : S1875x128.Idx → EReal) = selfOutArr (a0 m c) (a2 m c) (a3 m c) := by
  unfold selfOutArr takePerm permMask permStart permWords permRem permDiv selfBaseArr blockSums
  dsimp only [V, V0]
  simp only [hostOps0, hostOps0_1, hostOps0_2, hostOps0_3, hostOps0_4, List.flatten_cons, List.flatten_nil,
    List.append_nil, List.cons_append, List.nil_append]
  after_results_simp
  simp only [TRef.toBuf, TRef.ofBuf, cast_eq]
  rfl

end Cert.KernelIdeal.Stages

end
-- ==== Proof.HostDists.lean ====
/-
  The distances as the region finds them: the `[32, 30000]` array reshaped to `[32, 16, 1875]` and transposed to
  `[16, 32, 1875]`, so that entry `(r, a, p)` is the distance of anchor `a` to node `1875 r + p`.
-/
import proofs.«424267_j84043920048504_3_alg».proof.Proof.HostStages
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostDists

open Cert.KernelIdeal Cert.KernelIdeal.Bridge Cert.KernelIdeal.Stages Cert.KernelIdeal.Facts₀ Idealize.ShloMosaic Idealize.ShloMosaic.TcCoe Idealize.SL.Sem
open Idealize.ShloMosaic.ValueIdx Cert.Spec

/-- The reshaped and transposed distances at `(r, a, p)` are `x1 a (1875 r + p)`. -/
theorem distsArr_apply (x1 : TDist.Idx → EReal) :
    distsArr x1 = fun i => x1 (ix2 (i 1) (rowOf (i 0) (i 2))) := by
  funext i
  obtain ⟨r, a, p, rfl⟩ : ∃ r a p, i = ix3 r a p := ⟨i 0, i 1, i 2, eq_ix3 i⟩
  unfold distsArr
  -- the transpose by [1, 0, 2] reads its operand at (a, r, p)
  rw [transpose_apply [1, 0, 2] _ transposes_S32x16x1875_S16x32x1875_1_0_2 (ix3 r a p) (ix3 a r p) (fun b => match b with
    | ⟨0, _⟩ => rfl
    | ⟨1, _⟩ => rfl
    | ⟨2, _⟩ => rfl)]
  -- the reshape keeps the row-major position: (16 a + r) 1875 + p = 30000 a + (1875 r + p)
  exact shapeCast_apply x1 shapeCasts_S32x30000_S32x16x1875 (ix3 a r p) (ix2 a (rowOf r p))
    (by
      rewrite [Shape.rowMajor_val_two, Shape.rowMajor_val_three]
      have hr : r.val < 16 := r.isLt
      have ha : a.val < 32 := a.isLt
      have hp : p.val < 1875 := p.isLt
      show a.val * 30000 + (1875 * r.val + p.val) = (a.val * 16 + r.val) * 1875 + p.val
      omega)

variable (m : (ℓ : Loc nD τ sig) → Buf (Elt Ideal) ℓ)

/-- Window 0's array at `(r, a, p)` is `x1 a (1875 r + p)`. -/
theorem V_dists (c : Dev nD) :
    (Gen.V (F := Ideal) m c main_v26 : S16x32x1875.Idx → EReal)
      = fun i => a1 m c (ix2 (i 1) (rowOf (i 0) (i 2))) :=
  (V26_eq m c).trans (distsArr_apply _)

end Cert.KernelIdeal.HostDists

end
-- ==== Proof.LibGather.lean ====
/-
  A gather of whole rows read at an index.

  `stablehlo.gather` of a table `x : [N, C]` at start indices `idx : [R, 1]` with offset dimension 1, collapsed
  slice dimension 0, start index map `[0]`, index vector dimension 1 and slice sizes `[1, C]` (what taking rows of a
  matrix along axis 0 lowers to): result element `(t, j)` is `x` at row `idx[t, 0]`, read as a signed integer and
  clamped into `[0, N − 1]`, and column `j`.
-/
import Idealize.ShloMosaic.PureOps.Ideal
import Idealize.ShloMosaic.Lib.ValueIdx

noncomputable section

namespace Cert.LibGather

open Idealize.ShloMosaic Idealize.ShloMosaic.ValueIdx

/-- THE ROW GATHER READ AT `(t, j)`: the table at the start index `idx[t, 0]`, read signed and clamped into
    `[0, N − 1]`, in column `j`. -/
theorem gather_rows_apply {α : Type} {N R C w : Nat} (hN : 0 < N)
    (d : GatherDims ⟨2, ![N, C]⟩ ⟨2, ![R, 1]⟩ ⟨2, ![R, C]⟩)
    (hoff : d.offsetDims = [1]) (hcol : d.collapsedSliceDims = [0]) (hob : d.operandBatchingDims = [])
    (hsb : d.startIndicesBatchingDims = []) (hmap : d.startIndexMap = [0]) (hiv : d.indexVectorDim = 1)
    (hss : d.sliceSizes = ![1, C])
    (x : (⟨2, ![N, C]⟩ : Shape).Idx → α) (idx : IVec ⟨2, ![R, 1]⟩ w) (t : Fin R) (j : Fin C) :
    Host.gather d x idx (ix2 t j)
      = x (ix2 (⟨min (idx (ix2 t (0 : Fin 1))).toInt.toNat (N - 1), by omega⟩ : Fin N) j) := by
  unfold Host.gather
  congr 1
  funext a
  -- no operand axis is a batching axis
  have hb : ∀ a : Fin 2, a ∉ d.operandBatchingDims := fun a => by rw [hob]; exact List.not_mem_nil
  -- the result's one batch axis is axis 0, its one offset axis is axis 1
  have hbat : ∀ X : Fin 2, X ∈ d.batchDims → X = 0 := by
    intro X hX
    have h1 : X ∉ d.offsetDims := by
      simpa [GatherDims.batchDims, Shape.kept, List.mem_filter, List.mem_finRange] using hX
    rw [hoff] at h1
    match X with
    | ⟨0, _⟩ => rfl
    | ⟨1, _⟩ => exact absurd (List.mem_singleton.mpr rfl) h1
  have hofs : ∀ X : Fin 2, X ∈ d.offsetDims → X = 1 := by
    intro X hX
    rw [hoff] at hX
    exact List.mem_singleton.mp hX
  match a with
  | ⟨0, _⟩ =>
    -- the row axis: collapsed and start-indexed
    refine Fin.ext ?_
    show d.start (ix2 t j) idx 0 + d.batchCoord (ix2 t j) 0 + d.offCoord (ix2 t j) 0 = _
    have hk : (0 : Fin 2) ∉ d.sKept := by rw [GatherDims.mem_sKept, hcol]; simp
    have hm : (0 : Fin 2) ∈ d.startIndexMap := by rw [hmap]; exact List.mem_singleton.mpr rfl
    have hsl : d.sliceSizes 0 = 1 := by rw [hss]; rfl
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 t (0 : Fin 1))).toInt.toNat (N - 1)
    rw [hsl]
    congr 3
    congr 1
    funext b
    match b with
    | ⟨0, _⟩ =>
      -- the start indices' axis 0 reads the result's batch axis
      unfold GatherDims.siIdx
      rw [dif_neg (by rw [hiv]; simp)]
      unfold GatherDims.siCoord
      apply Fin.ext
      simp only [Fin.val_cast]
      rw [hbat _ (List.getElem_mem _)]
    | ⟨1, _⟩ =>
      -- the index vector's axis holds the one component of the start index
      unfold GatherDims.siIdx
      rw [dif_pos (by rw [hiv])]
      apply Fin.ext
      show List.idxOf (0 : Fin 2) d.startIndexMap = 0
      rw [hmap]; simp
  | ⟨1, _⟩ =>
    -- the column axis: kept whole, read at the result's offset coordinate
    refine Fin.ext ?_
    show d.start (ix2 t j) idx 1 + d.batchCoord (ix2 t j) 1 + d.offCoord (ix2 t j) 1 = j.val
    have hk : (1 : Fin 2) ∈ d.sKept := by rw [GatherDims.mem_sKept, hcol, hob]; simp
    have hm : (1 : Fin 2) ∉ d.startIndexMap := by rw [hmap]; simp
    rw [GatherDims.batchCoord_eq_zero _ _ _ (hb 1)]
    unfold GatherDims.start GatherDims.offCoord
    rw [dif_neg hm, dif_pos hk, hofs _ (List.getElem_mem _)]
    simp only [Nat.add_zero, Nat.zero_add]

end Cert.LibGather

end
-- ==== Proof.HostAnchors.lean ====
/-
  The anchors' branch as the region finds it: the rows the anchor indices select (every index in range, so the
  take's out-of-range fill never applies), through the left half of the weight, over 32.
-/
import proofs.«424267_j84043920048504_3_alg».proof.Proof.HostStages
import proofs.«424267_j84043920048504_3_alg».proof.Proof.LibGather
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import Idealize.ShloMosaic.Lib.Affine

noncomputable section

open scoped BigOperators

namespace Cert.KernelIdeal.HostAnchors

open Cert.KernelIdeal Cert.KernelIdeal.Bridge Cert.KernelIdeal.Stages Cert.KernelIdeal.Facts₀ Idealize.ShloMosaic Idealize.ShloMosaic.TcCoe Idealize.SL.Sem
open Idealize.ShloMosaic.ValueIdx Cert.Spec

/-! ## The wrapped index -/

/-- An index in `[-30000, 30000)`, moved up by 30000 when negative, lies in `[0, 29999]`. -/
theorem wrapIdx_bounds (w : BitVec 32) (h1 : -30000 ≤ w.toInt) (h2 : w.toInt < 30000) :
    0 ≤ (wrapIdx w).toInt ∧ (wrapIdx w).toInt ≤ 29999 := by
  have e1 := BitVec.toInt_eq_toNat_cond w
  have e2 := BitVec.toInt_eq_toNat_cond (w + 30000#32)
  have e3 : (w + 30000#32).toNat = (w.toNat + 30000) % 4294967296 := by
    simp [BitVec.toNat_add]
  have hw := w.isLt
  unfold wrapIdx
  by_cases hneg : w.toInt < 0
  · have hc : IntOp.cmpi .slt w 0#32 = 1#1 := IntOp.cmpi_slt.mpr (by simpa using hneg)
    rw [hc, select_one]
    split at e1 <;> split at e2 <;> omega
  · have hc : IntOp.cmpi .slt w 0#32 = 0#1 :=
      eq_zero_of_ne_one fun h => hneg (by simpa using IntOp.cmpi_slt.mp h)
    rw [hc, select_zero]
    omega

/-- The start indices at `(a, 0)`: anchor `a`'s index, wrapped. -/
theorem anchorStart_apply (x4 : TIds.Idx → BitVec 32) (a : Fin 32) (z : Fin 1) :
    anchorStart x4 (ix2 a z) = wrapIdx (x4 (ix1 a)) := by
  unfold anchorStart
  rw [broadcastInDim_apply _ bcast_S32_S32x1_0 _ (ix2 a z) (ix1 a) (fun b => match b with
    | ⟨0, _⟩ => by show a.val = if (32 : Nat) = 1 then 0 else a.val; rw [if_neg (by decide)])]
  rfl

/-! ## The mask -/

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons b l ih =>
    rw [List.foldl_cons, h b (List.mem_cons_self ..)]
    have e : IntOp.andi (1#1 : BitVec 1) 1#1 = 1#1 := by decide
    rw [e]
    exact ih fun n hn => h n (List.mem_cons_of_mem _ hn)

/-- Every wrapped anchor index is inside the table, so the mask is 1 everywhere. -/
theorem anchorMask_one (x4 : TIds.Idx → BitVec 32) (hr : IdsInRange x4) (j : S32.Idx) :
    anchorMask (anchorStart x4) j = 1#1 := by
  unfold anchorMask
  rw [Host.reduce_eq_foldl]
  refine foldl_andi_one _ _ fun i _ => ?_
  obtain ⟨a, z, rfl⟩ : ∃ a z, i = ix2 a z := ⟨i 0, i 1, eq_ix2 i⟩
  show IntOp.andi (IntOp.cmpi .sge (anchorStart x4 (ix2 a z)) 0#32) (IntOp.cmpi .sle (anchorStart x4 (ix2 a z)) 29999#32) = 1#1
  rw [anchorStart_apply]
  obtain ⟨h0, h1⟩ := wrapIdx_bounds _ (hr a).1 (hr a).2
  rw [IntOp.cmpi_sge.mpr (by simpa using h0), IntOp.cmpi_sle.mpr (by simpa using h1)]
  decide

/-! ## The selected rows -/

/-- The rows taken are the anchors. -/
theorem takeAnchors_apply (x0 : TEmb.Idx → EReal) (x4 : TIds.Idx → BitVec 32) (hr : IdsInRange x4) (a : Fin 32) (d : Fin 128) :
    takeAnchors x0 x4 (ix2 a d) = anchors x0 x4 (ix2 a d) := by
  unfold takeAnchors
  rw [select_apply]
  rw [broadcastInDim_apply _ bcast_S32_S32x128_0 _ (ix2 a d) (ix1 a) (fun b => match b with
    | ⟨0, _⟩ => by show a.val = if (32 : Nat) = 1 then 0 else a.val; rw [if_neg (by decide)])]
  rw [anchorMask_one x4 hr, select_one]
  rw [Cert.LibGather.gather_rows_apply (by decide) gather_S30000x128_S32x1_S32x128_1_0_n_n_0_1_1128 rfl rfl rfl rfl rfl rfl rfl x0
    (anchorStart x4) a d]
  unfold anchors anchorRow
  refine congrArg x0 (funext fun b => ?_)
  match b with
  | ⟨0, _⟩ =>
    refine Fin.ext ?_
    show min (anchorStart x4 (ix2 a (0 : Fin 1))).toInt.toNat (30000 - 1) = min (wrapIdx (x4 (ix1 a))).toInt.toNat 29999
    rw [anchorStart_apply]
  | ⟨1, _⟩ => rfl

/-! ## The weight's left half, transposed -/

/-- The transposed left half of the weight at `(d, k)` is the weight at `(k, d)`. -/
theorem wLeftT_apply (x2 : TW.Idx → EReal) (d k : Fin 128) :
    transpose S128x128 [1, 0] (extractStridedSlice S128x128 ![0, 0] x2 slices_S128x256_S128x128_0_0)
      transposes_S128x128_S128x128_1_0 (ix2 d k) = x2 (ix2 k (colL d)) := by
  rw [transpose_apply [1, 0] _ transposes_S128x128_S128x128_1_0 (ix2 d k) (ix2 k d) (fun b => match b with
    | ⟨0, _⟩ => rfl
    | ⟨1, _⟩ => rfl)]
  exact extractStridedSlice_apply ![0, 0] x2 slices_S128x256_S128x128_0_0 (ix2 k d) (ix2 k (colL d)) (fun b => match b with
    | ⟨0, _⟩ => by show k.val = 0 + k.val; omega
    | ⟨1, _⟩ => by show d.val = 0 + d.val; omega)

/-! ## The product -/

/-- The left operand's index, axis by axis: the result's row, then the contracted coordinate. -/
theorem lhs_anch_0 (i : S32x128.Idx) (q : dot_S32x128_S128x128_S32x128_1_0_0_1_n_n.contr.Idx) :
    (dot_S32x128_S128x128_S32x128_1_0_0_1_n_n.lhsIdx i q 0).val = (i 0).val := by
  unfold DotDims.lhsIdx
  rw [dif_neg (show ¬(0 : Fin S32x128.rank) ∈ dot_S32x128_S128x128_S32x128_1_0_0_1_n_n.lhsBatch by decide),
    dif_pos (show (0 : Fin S32x128.rank) ∈ dot_S32x128_S128x128_S32x128_1_0_0_1_n_n.lhsNonContracting by decide)]
  rfl
theorem lhs_anch_1 (i : S32x128.Idx) (q : dot_S32x128_S128x128_S32x128_1_0_0_1_n_n.contr.Idx) :
    (dot_S32x128_S128x128_S32x128_1_0_0_1_n_n.lhsIdx i q 1).val = (q ⟨0, by decide⟩).val :=
  dot_S32x128_S128x128_S32x128_1_0_0_1_n_n.lhsIdx_val_of_single rfl i q
/-- The right operand's index, axis by axis: the contracted coordinate, then the result's column. -/
theorem rhs_anch_0 (i : S32x128.Idx) (q : dot_S32x128_S128x128_S32x128_1_0_0_1_n_n.contr.Idx) :
    (dot_S32x128_S128x128_S32x128_1_0_0_1_n_n.rhsIdx i q 0).val = (q ⟨0, by decide⟩).val :=
  dot_S32x128_S128x128_S32x128_1_0_0_1_n_n.rhsIdx_val_of_single rfl i q
theorem rhs_anch_1 (i : S32x128.Idx) (q : dot_S32x128_S128x128_S32x128_1_0_0_1_n_n.contr.Idx) :
    (dot_S32x128_S128x128_S32x128_1_0_0_1_n_n.rhsIdx i q 1).val = (i 1).val := by
  unfold DotDims.rhsIdx
  rw [dif_neg (show ¬(1 : Fin S128x128.rank) ∈ dot_S32x128_S128x128_S32x128_1_0_0_1_n_n.rhsBatch by decide),
    dif_pos (show (1 : Fin S128x128.rank) ∈ dot_S32x128_S128x128_S32x128_1_0_0_1_n_n.rhsNonContracting by decide)]
  rfl

/-- The product of a `[32, 128]` array with a `[128, 128]` one at `(a, k)`: the sum over the shared axis. -/
theorem dotAnch_apply (y0 : FVec Ideal S32x128 .f32) (y1 : FVec Ideal S128x128 .f32) (a : Fin 32) (k : Fin 128) :
    Host.dotGeneral (F := Ideal) dot_S32x128_S128x128_S32x128_1_0_0_1_n_n none y0 y1 (ix2 a k)
      = ∑ d : Fin 128, y0 (ix2 a d) * y1 (ix2 d k) := by
  simp only [Host.dotGeneral]
  rw [Ideal.dotGeneral_apply, ← Equiv.sum_comp (contrEquiv1 dot_S32x128_S128x128_S32x128_1_0_0_1_n_n 128 rfl rfl).symm]
  refine Finset.sum_congr rfl fun d _ => ?_
  have hd := contrEquiv1_symm_val dot_S32x128_S128x128_S32x128_1_0_0_1_n_n 128 rfl rfl d
  have el : dot_S32x128_S128x128_S32x128_1_0_0_1_n_n.lhsIdx (ix2 a k)
      ((contrEquiv1 dot_S32x128_S128x128_S32x128_1_0_0_1_n_n 128 rfl rfl).symm d) = ix2 a d := funext fun b => Fin.ext (by
    match b with
    | ⟨0, _⟩ => exact lhs_anch_0 _ _
    | ⟨1, _⟩ => exact (lhs_anch_1 _ _).trans hd)
  have er : dot_S32x128_S128x128_S32x128_1_0_0_1_n_n.rhsIdx (ix2 a k)
      ((contrEquiv1 dot_S32x128_S128x128_S32x128_1_0_0_1_n_n 128 rfl rfl).symm d) = ix2 d k := funext fun b => Fin.ext (by
    match b with
    | ⟨0, _⟩ => exact (rhs_anch_0 _ _).trans hd
    | ⟨1, _⟩ => exact rhs_anch_1 _ _)
  rw [el, er]

/-- The anchors' branch at `(a, k)` is `(∑_d A a d · W k d) / 32` for the selected rows `A`, when every anchor index is
    in `[-30000, 30000)`. -/
theorem anchWArr_apply (x0 : TEmb.Idx → EReal) (x2 : TW.Idx → EReal) (x4 : TIds.Idx → BitVec 32)
    (hr : IdsInRange x4) :
    anchWArr x0 x2 x4 = fun i => anchW (anchors x0 x4) x2 (i 0) (i 1) := by
  funext i
  obtain ⟨a, k, rfl⟩ : ∃ a k, i = ix2 a k := ⟨i 0, i 1, eq_ix2 i⟩
  unfold anchWArr anchW
  show Ideal.div (Host.dotGeneral (F := Ideal) dot_S32x128_S128x128_S32x128_1_0_0_1_n_n none (takeAnchors x0 x4)
      (transpose S128x128 [1, 0] (extractStridedSlice S128x128 ![0, 0] x2 slices_S128x256_S128x128_0_0)
        transposes_S128x128_S128x128_1_0) (ix2 a k)) c32 = _
  rw [dotAnch_apply]
  congr 1
  refine Finset.sum_congr rfl fun d _ => ?_
  rw [takeAnchors_apply x0 x4 hr, wLeftT_apply]

variable (m : (ℓ : Loc nD τ sig) → Buf (Elt Ideal) ℓ)

/-- Window 2's array, when every anchor index is in range. -/
theorem V_anchW (c : Dev nD) (hr : IdsInRange (a4 m c)) :
    (Gen.V (F := Ideal) m c main_v6 : S32x128.Idx → EReal)
      = fun i => anchW (anchors (a0 m c) (a4 m c)) (a2 m c) (i 0) (i 1) :=
  (V6_eq m c).trans (anchWArr_apply _ _ _ hr)

end Cert.KernelIdeal.HostAnchors

end
-- ==== Proof.HostBlocks.lean ====
/-
  The block sums of the embeddings and their cyclic pairing: row `q` of the paired array is the sum of the 16 rows of
  block `q` plus the sum of the 16 rows of block `q + 1 mod 1875`, over 32.
-/
import proofs.«424267_j84043920048504_3_alg».proof.Proof.HostStages
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostBlocks

open Cert.KernelIdeal Cert.KernelIdeal.Bridge Cert.KernelIdeal.Stages Cert.KernelIdeal.Facts₀ Idealize.ShloMosaic Idealize.ShloMosaic.TcCoe Idealize.SL.Sem
open Idealize.ShloMosaic.ValueIdx Cert.Spec

/-- A block sum read at `(q, d)`: zero plus the sum over the 16 rows `16 q + t` of column `d`. -/
theorem blockSums_apply (x0 : TEmb.Idx → EReal) (q : Fin 1875) (d : Fin 128) :
    blockSums x0 (ix2 q d) = blockSum x0 q d := by
  unfold blockSums blockSum
  simp only [Host.reduceAdd, Ideal.hostReduceAdd_def]
  rw [Ideal.hostReduceAdd_single reducesTo_S1875x16x128_S1875x128_d1 (by decide)]
  refine congrArg₂ (· + ·) ?_ (Finset.sum_congr rfl fun t _ => ?_)
  · exact Ideal.ofBits_zero_f32
  · -- `[30000, 128]` read as `[1875, 16, 128]`: position `(q, t, d)` is row `16 q + t`, column `d`
    refine shapeCast_apply x0 shapeCasts_S30000x128_S1875x16x128 _ (ix2 (blockRow q t) d) ?_
    rewrite [Shape.rowMajor_val_two, Shape.rowMajor_val_three]
    show (16 * q.val + t.val) * 128 + d.val = (q.val * 16 + t.val) * 128 + d.val
    omega

/-- Rows `1 … 1874` of an array followed by its row `0`: row `q` of the result is row `q + 1 mod 1875`. -/
theorem shifted_apply (y : FVec Ideal S1875x128 .f32) (q : Fin 1875) (d : Fin 128) :
    concatenate S1875x128 0
        [⟨S1874x128, extractStridedSlice S1874x128 ![1, 0] y slices_S1875x128_S1874x128_1_0⟩,
         ⟨S1x128, extractStridedSlice S1x128 ![0, 0] y slices_S1875x128_S1x128_0_0⟩]
        concatenates_S1874x128_S1x128_S1875x128_d0 (ix2 q d)
      = y (ix2 (nextBlk q) d) := by
  by_cases hq : q.val < 1874
  · -- `q < 1874`: the first piece at row `q`, which is row `q + 1`
    refine (concatenate_pair_apply_left (t := S1875x128) (s₁ := S1874x128) (s₂ := S1x128) 0 _ _
      concatenates_S1874x128_S1x128_S1875x128_d0 (ix2 q d) rfl (ix2 ⟨q.val, hq⟩ d)
      (fun b => match b with | ⟨0, _⟩ => rfl | ⟨1, _⟩ => rfl)).trans ?_
    exact extractStridedSlice_apply ![1, 0] y slices_S1875x128_S1874x128_1_0 (ix2 ⟨q.val, hq⟩ d)
      (ix2 (nextBlk q) d) (fun a => match a with
        | ⟨0, _⟩ => by show (q.val + 1) % 1875 = 1 + q.val; omega
        | ⟨1, _⟩ => by show d.val = 0 + d.val; omega)
  · -- `q = 1874`: the second piece at row `0`, which is row `0 = 1875 mod 1875`
    have hq' : q.val = 1874 := by have := q.isLt; omega
    refine (concatenate_pair_apply_right (t := S1875x128) (s₁ := S1874x128) (s₂ := S1x128) 0 _ _
      concatenates_S1874x128_S1x128_S1875x128_d0 (ix2 q d) rfl rfl (ix2 ⟨0, Nat.one_pos⟩ d)
      (fun b hb => match b, hb with | ⟨0, _⟩, hb => absurd rfl hb | ⟨1, _⟩, _ => rfl)
      (by show 0 + 1874 = q.val; omega)).trans ?_
    exact extractStridedSlice_apply ![0, 0] y slices_S1875x128_S1x128_0_0 (ix2 ⟨0, Nat.one_pos⟩ d)
      (ix2 (nextBlk q) d) (fun a => match a with
        | ⟨0, _⟩ => by show (q.val + 1) % 1875 = 0 + 0; omega
        | ⟨1, _⟩ => by show d.val = 0 + d.val; omega)

/-- An array plus its cyclic shift, over 32, at `(q, d)`. -/
theorem pair_apply (y : FVec Ideal S1875x128 .f32) (q : Fin 1875) (d : Fin 128) :
    Host.divf
        (addf y
          (concatenate S1875x128 0
            [⟨S1874x128, extractStridedSlice S1874x128 ![1, 0] y slices_S1875x128_S1874x128_1_0⟩,
             ⟨S1x128, extractStridedSlice S1x128 ![0, 0] y slices_S1875x128_S1x128_0_0⟩]
            concatenates_S1874x128_S1x128_S1875x128_d0))
        (broadcastInDim S1875x128 ![] bcast_S_S1875x128 (constant S_ .f32 0x42000000#32)) (ix2 q d)
      = Ideal.div (y (ix2 q d) + y (ix2 (nextBlk q) d)) c32 :=
  congrArg₂ Ideal.div (congrArg₂ (· + ·) rfl (shifted_apply y q d)) rfl

/-- The paired block sums at `(q, d)`. -/
theorem selfBaseArr_apply (x0 : TEmb.Idx → EReal) :
    selfBaseArr x0 = fun i => Ideal.div (blockSum x0 (i 0) (i 1) + blockSum x0 (nextBlk (i 0)) (i 1)) c32 := by
  funext i
  obtain ⟨q, d, rfl⟩ : ∃ q d, i = ix2 q d := ⟨i 0, i 1, eq_ix2 i⟩
  unfold selfBaseArr
  refine (pair_apply (blockSums x0) q d).trans ?_
  rw [blockSums_apply, blockSums_apply]

end Cert.KernelIdeal.HostBlocks

end
-- ==== Proof.HostPerm.lean ====
/-
  The indices the self branch is taken at: position `p` takes row `2 p mod 1875`, and every such index lies inside
  the table, so the take's range test holds everywhere.
-/
import proofs.«424267_j84043920048504_3_alg».proof.Proof.HostStages
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostPerm

open Cert.KernelIdeal Cert.KernelIdeal.Bridge Cert.KernelIdeal.Stages Cert.KernelIdeal.Facts₀ Idealize.ShloMosaic Idealize.ShloMosaic.TcCoe Idealize.SL.Sem
open Idealize.ShloMosaic.ValueIdx Cert.Spec

/-- A truncated remainder of two words that are non-negative as signed numbers, the divisor positive, is the
    remainder of the natural numbers. -/
theorem remsi_small (u : ArithUnit) (x y : BitVec 32) (hx : x.toNat < 2 ^ 31) (hy0 : 0 < y.toNat)
    (hy : y.toNat < 2 ^ 31) : IntOp.remsi u x y = BitVec.ofNat 32 (x.toNat % y.toNat) := by
  have hcorner : ¬ IntOp.SDivCorner x y := by
    rintro (h | ⟨_, h⟩)
    · rw [h] at hy0; exact absurd hy0 (by decide)
    · rw [h] at hy; exact absurd hy (by decide)
  have hmx : x.msb = false := BitVec.msb_eq_false_iff_two_mul_lt.mpr (by omega)
  have hmy : y.msb = false := BitVec.msb_eq_false_iff_two_mul_lt.mpr (by omega)
  rw [IntOp.remsi, if_neg hcorner, BitVec.srem_eq, hmx, hmy]
  apply BitVec.eq_of_toNat_eq
  have hlt : x.toNat % y.toNat < 2 ^ 32 := lt_of_le_of_lt (Nat.mod_le _ _) (by omega)
  simp only [BitVec.toNat_umod, BitVec.toNat_ofNat]
  omega

/-- A small natural number's word is not below zero as a signed word. -/
theorem slt_zero_small (r : ℕ) (hr : r < 2 ^ 31) : IntOp.cmpi .slt (BitVec.ofNat 32 r) 0#32 = 0#1 := by
  have h : (BitVec.ofNat 32 r).slt 0#32 = false := by
    simp only [BitVec.slt, StableHlo.Predicate.toInt_ofNat_small r hr]
    simp
  simp only [IntOp.cmpi, h]
  rfl

/-- The divisor is 1875. -/
theorem permDiv_apply (j : S_.Idx) : permDiv j = 1875#32 := by
  unfold permDiv
  rfl

/-- The truncated remainder at position `p` is `2 p mod 1875`: the product `2 p` is below 3750 and does not wrap. -/
theorem permRem_apply (p : Fin 1875) : permRem (ix1 p) = BitVec.ofNat 32 ((2 * p.val) % 1875) := by
  have hp := p.isLt
  have hx : (IntOp.muli 2#32 (BitVec.ofNat 32 p.val)).toNat = 2 * p.val := by
    simp only [IntOp.muli, BitVec.toNat_mul, BitVec.toNat_ofNat]
    omega
  have h := remsi_small .host (IntOp.muli 2#32 (BitVec.ofNat 32 p.val)) 1875#32 (by rw [hx]; omega) (by decide) (by decide)
  rw [hx] at h
  exact h

/-- The sign fix is never taken: remainder and divisor are both non-negative. -/
theorem permWords_apply (p : Fin 1875) : permWords (ix1 p) = BitVec.ofNat 32 ((2 * p.val) % 1875) := by
  have hr : (2 * p.val) % 1875 < 2 ^ 31 := lt_of_lt_of_le (Nat.mod_lt _ (by norm_num)) (by norm_num)
  have hd : broadcastInDim S1875 ![] bcast_S_S1875 permDiv (ix1 p) = 1875#32 := permDiv_apply _
  show Scalar.select
      (IntOp.andi
        (IntOp.cmpi .ne (IntOp.cmpi .slt (permRem (ix1 p)) 0#32)
          (IntOp.cmpi .slt (permDiv ix0) 0#32))
        (IntOp.cmpi .ne (permRem (ix1 p)) 0#32))
      (IntOp.addi (permRem (ix1 p)) (broadcastInDim S1875 ![] bcast_S_S1875 permDiv (ix1 p))) (permRem (ix1 p)) = _
  rw [permRem_apply, permDiv_apply, hd, slt_zero_small _ hr]
  have h0 : ∀ c : BitVec 1, IntOp.andi (IntOp.cmpi .ne (0#1 : BitVec 1) (IntOp.cmpi .slt 1875#32 0#32)) c = 0#1 := by decide
  rw [h0]
  rfl

/-- A fold of the conjunction from 1 over bits that are all 1 is 1. -/
theorem foldl_andi_ones {ι : Type} (l : List ι) (g : ι → BitVec 1) (hg : ∀ n, g n = 1#1) :
    l.foldl (fun r n => IntOp.andi r (g n)) 1#1 = 1#1 := by
  induction l with
  | nil => rfl
  | cons a l ih =>
    rw [List.foldl_cons, hg, show IntOp.andi (1#1 : BitVec 1) 1#1 = 1#1 from by decide]
    exact ih

/-- A natural number below 2³¹ is the value of its word. -/
theorem toNat_ofNat_small (r : ℕ) (hr : r < 2 ^ 31) : (BitVec.ofNat 32 r).toNat = r := by
  rw [BitVec.toNat_ofNat]
  exact Nat.mod_eq_of_lt (by omega)

/-- The start index of position `p` is the word of `2 p mod 1875`. -/
theorem permStart_apply (p : Fin 1875) :
    permStart (ix2 p (0 : Fin 1)) = BitVec.ofNat 32 ((2 * p.val) % 1875) := by
  have hr : (2 * p.val) % 1875 < 2 ^ 31 := lt_of_lt_of_le (Nat.mod_lt _ (by norm_num)) (by norm_num)
  unfold permStart
  rw [broadcastInDim_apply _ _ _ (ix2 p (0 : Fin 1)) (ix1 p) (fun a => match a with | ⟨0, _⟩ => rfl)]
  show Scalar.select (IntOp.cmpi .slt (permWords (ix1 p)) 0#32) (IntOp.addi (permWords (ix1 p)) 1875#32)
    (permWords (ix1 p)) = _
  rw [permWords_apply, slt_zero_small _ hr]
  rfl

/-- Every start index is inside `[0, 1874]`: the range test is true at every position. -/
theorem permMask_apply (p : Fin 1875) : permMask permStart (ix1 p) = 1#1 := by
  unfold permMask Host.reduce
  refine foldl_andi_ones _ _ (fun n => ?_)
  -- the operand at any index (q, 0): both compares hold of the word of `2 q mod 1875 ≤ 1874`
  obtain ⟨q, k, hi⟩ : ∃ q k, S1875x1.rowMajor.symm n = ix2 q k := ⟨_, _, eq_ix2 _⟩
  obtain rfl : k = 0 := Subsingleton.elim _ _
  rw [hi]
  have hq : (2 * q.val) % 1875 < 1875 := Nat.mod_lt _ (by norm_num)
  have hr : (2 * q.val) % 1875 < 2 ^ 31 := lt_of_lt_of_le hq (by norm_num)
  show IntOp.andi (IntOp.cmpi .sge (permStart (ix2 q (0 : Fin 1))) 0#32)
    (IntOp.cmpi .sle (permStart (ix2 q (0 : Fin 1))) 1874#32) = 1#1
  rw [permStart_apply]
  have hn := toNat_ofNat_small _ hr
  have h1 : IntOp.cmpi .sge (BitVec.ofNat 32 ((2 * q.val) % 1875)) 0#32 = 1#1 :=
    (StableHlo.Predicate.sge_iff_toNat (by rw [hn]; exact hr) (by decide)).mpr (by rw [hn]; exact Nat.zero_le _)
  have h2 : IntOp.cmpi .sle (BitVec.ofNat 32 ((2 * q.val) % 1875)) 1874#32 = 1#1 :=
    (StableHlo.Predicate.sle_iff_toNat (by rw [hn]; exact hr) (by decide)).mpr
      (by rw [hn]; show (2 * q.val) % 1875 ≤ 1874; omega)
  rw [h1, h2]
  decide

end Cert.KernelIdeal.HostPerm

end
-- ==== Proof.HostSelf.lean ====
/-
  The self branch as the region finds it: the paired block sums taken at the blocks `2 p mod 1875`, through the
  right half of the weight, plus the bias.
-/
import proofs.«424267_j84043920048504_3_alg».proof.Proof.HostStages
import proofs.«424267_j84043920048504_3_alg».proof.Proof.LibGather
import proofs.«424267_j84043920048504_3_alg».proof.Proof.HostBlocks
import proofs.«424267_j84043920048504_3_alg».proof.Proof.HostPerm
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.KernelIdeal.HostSelf

open Cert.KernelIdeal Cert.KernelIdeal.Bridge Cert.KernelIdeal.Stages Cert.KernelIdeal.Facts₀ Idealize.ShloMosaic Idealize.ShloMosaic.TcCoe Idealize.SL.Sem
open Idealize.ShloMosaic.ValueIdx Cert.Spec

/-- The rows taken at the indices `2 p mod 1875`: every index is inside the table, so row `p` of the result is row
    `perm p` of the operand. -/
theorem takePerm_apply (y : FVec Ideal S1875x128 .f32) (p : Fin 1875) (d : Fin 128) :
    takePerm y (ix2 p d) = y (ix2 (perm p) d) := by
  unfold takePerm
  rw [select_apply]
  have hm : broadcastInDim S1875x128 ![0] bcast_S1875_S1875x128_0 (permMask permStart) (ix2 p d) = 1#1 := by
    rw [broadcastInDim_apply _ bcast_S1875_S1875x128_0 _ (ix2 p d) (ix1 p) (fun a => match a with
      | ⟨0, _⟩ => by show p.val = if (1875 : Nat) = 1 then 0 else p.val; rw [if_neg (by decide)])]
    exact HostPerm.permMask_apply p
  rw [hm, select_one, Cert.LibGather.gather_rows_apply (by norm_num) _ rfl rfl rfl rfl rfl rfl rfl]
  refine congrArg y (congrArg (fun r => ix2 r d) (Fin.ext ?_))
  show min (permStart (ix2 p (0 : Fin 1))).toInt.toNat (1875 - 1) = (2 * p.val) % 1875
  have hp := p.isLt
  rw [HostPerm.permStart_apply, StableHlo.Predicate.toInt_ofNat_small _ (by omega)]
  omega

/-- The left operand's row axis is the result's row axis. -/
theorem lhs_0 (i : S1875x128.Idx) (q : dot_S1875x128_S128x128_S1875x128_1_0_0_1_n_n.contr.Idx) :
    (dot_S1875x128_S128x128_S1875x128_1_0_0_1_n_n.lhsIdx i q 0).val = (i 0).val := by
  unfold DotDims.lhsIdx
  rw [dif_neg (show ¬(0 : Fin S1875x128.rank) ∈ dot_S1875x128_S128x128_S1875x128_1_0_0_1_n_n.lhsBatch by decide),
    dif_pos (show (0 : Fin S1875x128.rank) ∈ dot_S1875x128_S128x128_S1875x128_1_0_0_1_n_n.lhsNonContracting by decide)]
  rfl
/-- The left operand's column axis is the contracted one. -/
theorem lhs_1 (i : S1875x128.Idx) (q : dot_S1875x128_S128x128_S1875x128_1_0_0_1_n_n.contr.Idx) :
    (dot_S1875x128_S128x128_S1875x128_1_0_0_1_n_n.lhsIdx i q 1).val = (q ⟨0, by decide⟩).val :=
  dot_S1875x128_S128x128_S1875x128_1_0_0_1_n_n.lhsIdx_val_of_single rfl i q
/-- The right operand's row axis is the contracted one. -/
theorem rhs_0 (i : S1875x128.Idx) (q : dot_S1875x128_S128x128_S1875x128_1_0_0_1_n_n.contr.Idx) :
    (dot_S1875x128_S128x128_S1875x128_1_0_0_1_n_n.rhsIdx i q 0).val = (q ⟨0, by decide⟩).val :=
  dot_S1875x128_S128x128_S1875x128_1_0_0_1_n_n.rhsIdx_val_of_single rfl i q
/-- The right operand's column axis is the result's column axis. -/
theorem rhs_1 (i : S1875x128.Idx) (q : dot_S1875x128_S128x128_S1875x128_1_0_0_1_n_n.contr.Idx) :
    (dot_S1875x128_S128x128_S1875x128_1_0_0_1_n_n.rhsIdx i q 1).val = (i 1).val := by
  unfold DotDims.rhsIdx
  rw [dif_neg (show ¬(1 : Fin S128x128.rank) ∈ dot_S1875x128_S128x128_S1875x128_1_0_0_1_n_n.rhsBatch by decide),
    dif_pos (show (1 : Fin S128x128.rank) ∈ dot_S1875x128_S128x128_S1875x128_1_0_0_1_n_n.rhsNonContracting by decide)]
  rfl

/-- The self branch at `(p, k)` is `Spec.selfOut` of the embeddings, the weight and the bias. -/
theorem selfOutArr_apply (x0 : TEmb.Idx → EReal) (x2 : TW.Idx → EReal) (x3 : TB.Idx → EReal) :
    selfOutArr x0 x2 x3 = fun i => selfOut x0 x2 x3 (i 0) (i 1) := by
  funext i
  obtain ⟨p, k, rfl⟩ : ∃ p k, i = ix2 p k := ⟨i 0, i 1, eq_ix2 i⟩
  show selfOutArr x0 x2 x3 (ix2 p k) = selfOut x0 x2 x3 p k
  unfold selfOutArr selfOut
  rw [addf_apply]
  congr 1
  · simp only [Host.dotGeneral]
    rw [Ideal.dotGeneral_apply,
      ← Equiv.sum_comp (contrEquiv1 dot_S1875x128_S128x128_S1875x128_1_0_0_1_n_n 128 rfl rfl).symm]
    refine Finset.sum_congr rfl fun d _ => ?_
    have hk := contrEquiv1_symm_val dot_S1875x128_S128x128_S1875x128_1_0_0_1_n_n 128 rfl rfl d
    have el : dot_S1875x128_S128x128_S1875x128_1_0_0_1_n_n.lhsIdx (ix2 p k)
        ((contrEquiv1 dot_S1875x128_S128x128_S1875x128_1_0_0_1_n_n 128 rfl rfl).symm d) = ix2 p d :=
      funext fun a => Fin.ext (by
        match a with
        | ⟨0, _⟩ => exact lhs_0 _ _
        | ⟨1, _⟩ => exact (lhs_1 _ _).trans hk)
    have er : dot_S1875x128_S128x128_S1875x128_1_0_0_1_n_n.rhsIdx (ix2 p k)
        ((contrEquiv1 dot_S1875x128_S128x128_S1875x128_1_0_0_1_n_n 128 rfl rfl).symm d) = ix2 d k :=
      funext fun a => Fin.ext (by
        match a with
        | ⟨0, _⟩ => exact (rhs_0 _ _).trans hk
        | ⟨1, _⟩ => exact rhs_1 _ _)
    rw [el, er, takePerm_apply, HostBlocks.selfBaseArr_apply,
      transpose_apply [1, 0] _ transposes_S128x128_S128x128_1_0 (ix2 d k) (ix2 k d) (fun b => match b with
        | ⟨0, _⟩ => rfl
        | ⟨1, _⟩ => rfl),
      extractStridedSlice_apply ![0, 128] x2 slices_S128x256_S128x128_0_128 (ix2 k d) (ix2 k (colR d)) (fun a => match a with
        | ⟨0, _⟩ => by show k.val = 0 + k.val; omega
        | ⟨1, _⟩ => by show 128 + d.val = 128 + d.val; rfl)]
    rfl
  · rw [broadcastInDim_apply _ bcast_S1x128_S1875x128_0_1 _ (ix2 p k) (ix2 (0 : Fin 1) k) (fun a => match a with
        | ⟨0, _⟩ => by show 0 = if (1 : Nat) = 1 then 0 else p.val; rw [if_pos rfl]
        | ⟨1, _⟩ => by show k.val = if (128 : Nat) = 1 then 0 else k.val; rw [if_neg (by decide)]),
      shapeCast_apply x3 shapeCasts_S128_S1x128 (ix2 (0 : Fin 1) k) (ix1 k)
        (by rw [Shape.rowMajor_val_one, Shape.rowMajor_val_two]; show k.val = 0 * 128 + k.val; omega)]

variable (m : (ℓ : Loc nD τ sig) → Buf (Elt Ideal) ℓ)

/-- Window 1's array at `(p, k)`. -/
theorem V_selfOut (c : Dev nD) :
    (Gen.V (F := Ideal) m c main_v24 : S1875x128.Idx → EReal)
      = fun i => selfOut (a0 m c) (a2 m c) (a3 m c) (i 0) (i 1) :=
  (V24_eq m c).trans (selfOutArr_apply _ _ _)

end Cert.KernelIdeal.HostSelf

end
-- ==== Proof.KernelValue.lean ====
/-
  The idealized kernel's run with its result named.

  Each grid point `r` stages block `r` of the distances (`[1, 32, 1875]`), the whole self branch (`[1875, 128]`) and the
  whole anchors' branch (`[32, 128]`), and writes block `r` of the `[16, 1875, 128]` output: entry `(p, k)` of it is the
  distances of repetition `r` contracted with the anchors' branch over the 32 anchors, plus the self branch at
  `(p, k)`.  The 16 blocks tile the output, and the last reshape lays them out as `[30000, 128]`, row `1875 r + p`.
-/
import proofs.«424267_j84043920048504_3_alg».proof.Proof.HostDists
import proofs.«424267_j84043920048504_3_alg».proof.Proof.HostAnchors
import proofs.«424267_j84043920048504_3_alg».proof.Proof.HostSelf
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KernelValue

open Cert.KernelIdeal Cert.KernelIdeal.Gen Cert.KernelIdeal.Bridge Idealize.ShloMosaic Idealize.ShloMosaic.TcCoe Idealize.SL.Sem
open Idealize.ShloMosaic.StableHlo Idealize.ShloMosaic.ValueIdx Cert.Spec
open Idealize.ShloMosaic.Pipeline (Dat Cfg Window)

/-! ## The body's matrix product at an index

The product contracts axis 0 of both operands (the 32 anchors): entry `(p, k)` is `∑_a l a p · r a k`. -/

theorem lhs_mm_0 (i : S1875x128.Idx) (q : dot_S32x1875_S32x128_S1875x128_0_0_1_1_n_n.contr.Idx) :
    (dot_S32x1875_S32x128_S1875x128_0_0_1_1_n_n.lhsIdx i q 0).val = (q ⟨0, by decide⟩).val :=
  dot_S32x1875_S32x128_S1875x128_0_0_1_1_n_n.lhsIdx_val_of_single rfl i q
theorem lhs_mm_1 (i : S1875x128.Idx) (q : dot_S32x1875_S32x128_S1875x128_0_0_1_1_n_n.contr.Idx) :
    (dot_S32x1875_S32x128_S1875x128_0_0_1_1_n_n.lhsIdx i q 1).val = (i 0).val := by
  unfold DotDims.lhsIdx
  rw [dif_neg (show ¬(1 : Fin S32x1875.rank) ∈ dot_S32x1875_S32x128_S1875x128_0_0_1_1_n_n.lhsBatch by decide), dif_pos (show (1 : Fin S32x1875.rank) ∈ dot_S32x1875_S32x128_S1875x128_0_0_1_1_n_n.lhsNonContracting by decide)]
  rfl
theorem rhs_mm_0 (i : S1875x128.Idx) (q : dot_S32x1875_S32x128_S1875x128_0_0_1_1_n_n.contr.Idx) :
    (dot_S32x1875_S32x128_S1875x128_0_0_1_1_n_n.rhsIdx i q 0).val = (q ⟨0, by decide⟩).val :=
  dot_S32x1875_S32x128_S1875x128_0_0_1_1_n_n.rhsIdx_val_of_single rfl i q
theorem rhs_mm_1 (i : S1875x128.Idx) (q : dot_S32x1875_S32x128_S1875x128_0_0_1_1_n_n.contr.Idx) :
    (dot_S32x1875_S32x128_S1875x128_0_0_1_1_n_n.rhsIdx i q 1).val = (i 1).val := by
  unfold DotDims.rhsIdx
  rw [dif_neg (show ¬(1 : Fin S32x128.rank) ∈ dot_S32x1875_S32x128_S1875x128_0_0_1_1_n_n.rhsBatch by decide), dif_pos (show (1 : Fin S32x128.rank) ∈ dot_S32x1875_S32x128_S1875x128_0_0_1_1_n_n.rhsNonContracting by decide)]
  rfl

/-- The product into a zero accumulator, at `(p, k)`: the sum over the anchors. -/
theorem mm_apply (l : FVec Ideal S32x1875 .f32) (r : FVec Ideal S32x128 .f32) (p : Fin 1875) (k : Fin 128) :
    matmul dot_S32x1875_S32x128_S1875x128_0_0_1_1_n_n none l r (constant (F := Ideal) S1875x128 .f32 0x00000000#32) (ix2 p k)
      = ∑ a : Fin 32, l (ix2 a p) * r (ix2 a k) := by
  simp only [matmul]
  rw [Ideal.matmul_constant_zero_apply, ← Equiv.sum_comp (ValueIdx.contrEquiv1 dot_S32x1875_S32x128_S1875x128_0_0_1_1_n_n 32 rfl rfl).symm]
  refine Finset.sum_congr rfl fun a _ => ?_
  have hk := ValueIdx.contrEquiv1_symm_val dot_S32x1875_S32x128_S1875x128_0_0_1_1_n_n 32 rfl rfl a
  have el : dot_S32x1875_S32x128_S1875x128_0_0_1_1_n_n.lhsIdx (ix2 p k) ((ValueIdx.contrEquiv1 dot_S32x1875_S32x128_S1875x128_0_0_1_1_n_n 32 rfl rfl).symm a) = ix2 a p := funext fun b => Fin.ext (by
    match b with
    | ⟨0, _⟩ => exact (lhs_mm_0 _ _).trans hk
    | ⟨1, _⟩ => exact lhs_mm_1 _ _)
  have er : dot_S32x1875_S32x128_S1875x128_0_0_1_1_n_n.rhsIdx (ix2 p k) ((ValueIdx.contrEquiv1 dot_S32x1875_S32x128_S1875x128_0_0_1_1_n_n 32 rfl rfl).symm a) = ix2 a k := funext fun b => Fin.ext (by
    match b with
    | ⟨0, _⟩ => exact (rhs_mm_0 _ _).trans hk
    | ⟨1, _⟩ => exact rhs_mm_1 _ _)
  rw [el, er]

/-- What the body stores, at `(0, p, k)` of the output block: the distances block contracted with the anchors' branch
    over the anchors, plus the self branch. -/
theorem pay_apply (v0 : Vec Ideal S1x32x1875 .f32) (v2 : Vec Ideal S32x128 .f32) (v5 : Vec Ideal S1875x128 .f32)
    (p : Fin 1875) (k : Fin 128) :
    k0_pay1 v0 v2 v5 (ix3 (0 : Fin 1) p k)
      = (∑ a : Fin 32, v0 (ix3 (0 : Fin 1) a p) * v2 (ix2 a k)) + v5 (ix2 p k) := by
  unfold k0_pay1
  rw [shapeCast_apply _ _ (ix3 (0 : Fin 1) p k) (ix2 p k) (by
    rw [Shape.rowMajor_val_two, Shape.rowMajor_val_three]
    show p.val * 128 + k.val = ((0 : Fin 1).val * 1875 + p.val) * 128 + k.val
    simp)]
  rw [addf_apply, shapeCast_self, shapeCast_self, mm_apply]
  congr 1
  refine Finset.sum_congr rfl fun a _ => ?_
  rw [shapeCast_apply _ _ (ix2 a p) (ix3 (0 : Fin 1) a p) (by
    rw [Shape.rowMajor_val_two, Shape.rowMajor_val_three]
    show ((0 : Fin 1).val * 32 + a.val) * 1875 + p.val = a.val * 1875 + p.val
    simp)]

/-! ## What one grid point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The `[16, 1875, 128]` output as one function of the three arrays the region reads. -/
def outArr (D : S16x32x1875.Idx → EReal) (S : S1875x128.Idx → EReal) (A : S32x128.Idx → EReal) :
    S16x1875x128.Idx → EReal :=
  fun i => (∑ a : Fin 32, D (ix3 (i 0) a (i 1)) * A (ix2 a (i 2))) + S (ix2 (i 1) (i 2))

/-- The printed index maps over the grid: point `t` takes block `t` of the distances and of the output along the
    leading axis, and the two whole arrays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Grid point `t` as a repetition. -/
abbrev repAt (t : Fin cfg0.N) : Fin 16 := ⟨t.val, t.isLt⟩

/-- Entry `(0, a, p)` of point `t`'s block of the distances is entry `(t, a, p)` of the array. -/
theorem emb0 (t : Fin cfg0.N) (a : Fin 32) (p : Fin 1875) :
    ((cfg0.win 0).blk t).view.emb (ix3 (0 : Fin 1) a p) = ix3 (repAt t) a p := by
  obtain ⟨e00, e01, e02, -⟩ := idx_facts t
  funext b; apply Fin.ext
  match b with
  | ⟨0, _⟩ => show win0_0.index t (0 : Fin 3) * 1 + 1 * 0 = t.val; omega
  | ⟨1, _⟩ => show win0_0.index t (1 : Fin 3) * 32 + 1 * a.val = a.val; omega
  | ⟨2, _⟩ => show win0_0.index t (2 : Fin 3) * 1875 + 1 * p.val = p.val; omega

/-- The self branch is staged whole: entry `(p, k)` of the block is entry `(p, k)` of the array. -/
theorem emb1 (t : Fin cfg0.N) (p : Fin 1875) (k : Fin 128) :
    ((cfg0.win 1).blk t).view.emb (ix2 p k) = ix2 p k := by
  obtain ⟨-, -, -, e10, e11, -⟩ := idx_facts t
  funext b; apply Fin.ext
  match b with
  | ⟨0, _⟩ => show win0_1.index t (0 : Fin 2) * 1875 + 1 * p.val = p.val; omega
  | ⟨1, _⟩ => show win0_1.index t (1 : Fin 2) * 128 + 1 * k.val = k.val; omega

/-- The anchors' branch is staged whole. -/
theorem emb2 (t : Fin cfg0.N) (a : Fin 32) (k : Fin 128) :
    ((cfg0.win 2).blk t).view.emb (ix2 a k) = ix2 a k := by
  obtain ⟨-, -, -, -, -, e20, e21, -⟩ := idx_facts t
  funext b; apply Fin.ext
  match b with
  | ⟨0, _⟩ => show win0_2.index t (0 : Fin 2) * 32 + 1 * a.val = a.val; omega
  | ⟨1, _⟩ => show win0_2.index t (1 : Fin 2) * 128 + 1 * k.val = k.val; omega

/-- Entry `(0, p, k)` of point `t`'s output block is entry `(t, p, k)` of the output. -/
theorem emb3 (t : Fin cfg0.N) (p : Fin 1875) (k : Fin 128) :
    ((cfg0.win 3).blk t).view.emb (ix3 (0 : Fin 1) p k) = ix3 (repAt t) p k := by
  obtain ⟨-, -, -, -, -, -, -, e30, e31, e32⟩ := idx_facts t
  funext b; apply Fin.ext
  match b with
  | ⟨0, _⟩ => show win0_3.index t (0 : Fin 3) * 1 + 1 * 0 = t.val; omega
  | ⟨1, _⟩ => show win0_3.index t (1 : Fin 3) * 1875 + 1 * p.val = p.val; omega
  | ⟨2, _⟩ => show win0_3.index t (2 : Fin 3) * 128 + 1 * k.val = k.val; omega

variable (m : (ℓ : Loc nD τ sig) → Buf (Elt Ideal) ℓ)

set_option maxHeartbeats 1000000 in
/-- WHAT POINT `t` WRITES BACK is block `t` of `outArr` of the three arrays the region reads, whatever they hold. -/
theorem flushed3_eq (c : Dev nD) (t : Fin cfg0.N)
    (D : S16x32x1875.Idx → EReal) (S : S1875x128.Idx → EReal) (A : S32x128.Idx → EReal)
    (hD : V (F := Ideal) m c (Pipeline.arrRef spec0 0) = D) (hS : V (F := Ideal) m c (Pipeline.arrRef spec0 1) = S)
    (hA : V (F := Ideal) m c (Pipeline.arrRef spec0 2) = A) :
    (dats m 0 c).flushed 3 t = ((cfg0.win 3).blk t).view.read (Elt Ideal) (outArr D S A) := by
  show (cfg0.win 3).cut (grid0.coords t) ((dats m 0 c).after 3 t) = _
  rw [after0_3]
  unfold out0_3 iblk
  rw [hD, hS, hA]
  rw [View.canon_unit_zero hz3]
  simp only [View.ld_unit_zero (S := S1x32x1875) hz3, View.ld_unit_zero (S := S32x128) hz2,
    View.ld_unit_zero (S := S1875x128) hz2]
  funext j
  obtain ⟨z, p, k, rfl⟩ : ∃ (z : Fin 1) (p : Fin 1875) (k : Fin 128), j = ix3 z p k := ⟨j 0, j 1, j 2, eq_ix3 j⟩
  obtain rfl : z = 0 := Subsingleton.elim _ _
  show k0_pay1 (((cfg0.win 0).blk t).view.read (Elt Ideal) D) (((cfg0.win 2).blk t).view.read (Elt Ideal) A)
        (((cfg0.win 1).blk t).view.read (Elt Ideal) S) (ix3 (0 : Fin 1) p k)
      = outArr D S A (((cfg0.win 3).blk t).view.emb (ix3 (0 : Fin 1) p k))
  refine (pay_apply _ _ _ p k).trans ?_
  rw [emb3]
  show (∑ a : Fin 32, D (((cfg0.win 0).blk t).view.emb (ix3 (0 : Fin 1) a p)) * A (((cfg0.win 2).blk t).view.emb (ix2 a k)))
        + S (((cfg0.win 1).blk t).view.emb (ix2 p k))
      = (∑ a : Fin 32, D (ix3 (repAt t) a p) * A (ix2 a k)) + S (ix2 p k)
  rw [emb1]
  congr 1
  exact Finset.sum_congr rfl fun a _ => by rw [emb0, emb2]

/-! ## The blocks tile the output -/

/-- An index of the output is in point `t`'s block iff each coordinate is in the block's range on its axis. -/
theorem mem_blk3 (t : Fin cfg0.N) (i : S16x1875x128.Idx) :
    i ∈ ((cfg0.win 3).blk t).view.set ↔ ∀ a : Fin 3, win0_3.index t a * S1x1875x128.size a ≤ (i a).val
      ∧ (i a).val < win0_3.index t a * S1x1875x128.size a + S1x1875x128.size a := by
  show i ∈ ((View.whole main_v27).slice (win0_3.rect t)).set ↔ _
  rw [View.set_slice_whole, Rect.mem_set_unit]
  exact Iff.rfl

/-- Every index `(r, p, k)` of the output lies in the block of point `r`. -/
theorem cover3 (i : S16x1875x128.Idx) :
    ∃ t : Fin cfg0.N, (cfg0.win 3).flush t = true ∧ i ∈ ((cfg0.win 3).blk t).view.set := by
  refine ⟨⟨(i 0).val, (i 0).isLt⟩, flush0_3 _, ?_⟩
  rw [mem_blk3]
  obtain ⟨-, -, -, -, -, -, -, e30, e31, e32⟩ := idx_facts ⟨(i 0).val, (i 0).isLt⟩
  have h1 : (i 1).val < 1875 := (i 1).isLt
  have h2 : (i 2).val < 128 := (i 2).isLt
  have e : win0_3.index ⟨(i 0).val, (i 0).isLt⟩ (0 : Fin 3) = (i 0).val := e30
  intro a
  match a with
  | ⟨0, _⟩ =>
    show win0_3.index ⟨(i 0).val, (i 0).isLt⟩ (0 : Fin 3) * 1 ≤ (i 0).val
      ∧ (i 0).val < win0_3.index ⟨(i 0).val, (i 0).isLt⟩ (0 : Fin 3) * 1 + 1
    omega
  | ⟨1, _⟩ =>
    show win0_3.index ⟨(i 0).val, (i 0).isLt⟩ (1 : Fin 3) * 1875 ≤ (i 1).val
      ∧ (i 1).val < win0_3.index ⟨(i 0).val, (i 0).isLt⟩ (1 : Fin 3) * 1875 + 1875
    omega
  | ⟨2, _⟩ =>
    show win0_3.index ⟨(i 0).val, (i 0).isLt⟩ (2 : Fin 3) * 128 ≤ (i 2).val
      ∧ (i 2).val < win0_3.index ⟨(i 0).val, (i 0).isLt⟩ (2 : Fin 3) * 128 + 128
    omega

/-- THE OUTPUT after the region: `outArr` of the three arrays the region reads. -/
theorem final3 (c : Dev nD) (D : S16x32x1875.Idx → EReal) (S : S1875x128.Idx → EReal) (A : S32x128.Idx → EReal)
    (hD : V (F := Ideal) m c (Pipeline.arrRef spec0 0) = D) (hS : V (F := Ideal) m c (Pipeline.arrRef spec0 1) = S)
    (hA : V (F := Ideal) m c (Pipeline.arrRef spec0 2) = A) :
    (dats m 0 c).arrAt 3 cfg0.N = outArr D S A :=
  (dats m 0 c).arrAt_eq_of_cover 3 (outArr D S A) (fun t _ => flushed3_eq m c t D S A hD hS hA) cover3

/-! ## The last reshape, and the run -/

/-- The result buffer after the host operation that follows the region: the output reshaped to `[30000, 128]`. -/
theorem tail_eq (c : Dev nD) (D : S16x32x1875.Idx → EReal) (S : S1875x128.Idx → EReal) (A : S32x128.Idx → EReal)
    (hD : V (F := Ideal) m c (Pipeline.arrRef spec0 0) = D) (hS : V (F := Ideal) m c (Pipeline.arrRef spec0 1) = S)
    (hA : V (F := Ideal) m c (Pipeline.arrRef spec0 2) = A) :
    Pipeline.afterTail₀ cfgs (dats m) 0 (V0 m) [hostOps1] c main_v28
      = shapeCast S30000x128 (outArr D S A) shapeCasts_S16x1875x128_S30000x128 := by
  unfold Pipeline.afterTail₀
  show StableHlo.after hostOps1 _ (Proc.devRef .tc main_v28) = _
  after_results
  have hW : Pipeline.withArrays (cfgs 0).spec c (V0 m c) (fun w => (dats m 0 c).arrAt w (cfgs 0).N)
      (Proc.devRef .tc main_v27) = outArr D S A :=
    (Pipeline.withArrays_arr spec0 launch0.win.arr_inj c _ _ 3).trans (final3 m c D S A hD hS hA)
  rw [hW]
  rfl

/-- The reshaped output, with the three arrays at their values, is the kernel's array: row `n` of the result is row
    `n mod 1875` of block `n / 1875`, and `1875 (n / 1875) + n mod 1875 = n`. -/
theorem reshape_out (A' : TAnch.Idx → EReal) (x0 : TEmb.Idx → EReal) (x1 : TDist.Idx → EReal) (W : TW.Idx → EReal)
    (b : TB.Idx → EReal) :
    shapeCast S30000x128
        (outArr (fun i => x1 (ix2 (i 1) (rowOf (i 0) (i 2)))) (fun i => selfOut x0 W b (i 0) (i 1))
          (fun i => anchW A' W (i 0) (i 1)))
        shapeCasts_S16x1875x128_S30000x128
      = kernelArr A' x0 x1 W b := by
  funext j
  obtain ⟨n, k, rfl⟩ : ∃ (n : Fin 30000) (k : Fin 128), j = ix2 n k := ⟨j 0, j 1, eq_ix2 j⟩
  rw [shapeCast_apply _ _ (ix2 n k) (ix3 (repOf n) (posOf n) k) (by
    rw [Shape.rowMajor_val_two, Shape.rowMajor_val_three]
    show ((n.val / 1875) * 1875 + n.val % 1875) * 128 + k.val = n.val * 128 + k.val
    have := Nat.div_add_mod n.val 1875
    omega)]
  have hn : rowOf (repOf n) (posOf n) = n := Fin.ext (by
    show 1875 * (n.val / 1875) + n.val % 1875 = n.val
    exact Nat.div_add_mod n.val 1875)
  show (∑ a : Fin 32, x1 (ix2 a (rowOf (repOf n) (posOf n))) * anchW A' W a k) + selfOut x0 W b (posOf n) k
      = kernelOut A' x0 x1 W b n k
  rw [hn]
  rfl

/-- Every weakly fair execution of the idealized kernel ends with the result array at `Spec.kernelArr` of the
    argument arrays and the arguments unchanged, when every anchor index is in range. -/
theorem kernel_run (ρ : Dev nD → PrngReg) (hr : ∀ c, IdsInRange (a4 m c)) :
    θ_run (defs (F := Ideal)) (onTc (τ := τ) (main (F := Ideal))) ⟨m, fun _ => 0, ρ⟩ (fun r => ∀ c : Dev nD,
      r.2.mem ((c.tc : Thread nD τ).loc main_v28)
        = kernelArr (anchors (a0 m c) (a4 m c)) (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_v28 (Pipeline.mem_restRefs_of main_v28 (by decide) (by decide))).trans
        (tail_eq m c _ _ _ (HostDists.V_dists m c) (HostSelf.V_selfOut m c) (HostAnchors.V_anchW m c (hr c)))).trans
        (reshape_out _ _ _ _ _),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KernelValue

end
-- ==== Proof.RefValue.lean ====
/-
  The reference's result, read at an index, is `Spec.refOut` of the gathered anchors.
-/
import proofs.«424267_j84043920048504_3_alg».proof.Proof.Gen.ReferenceIdeal.Read
import proofs.«424267_j84043920048504_3_alg».proof.Proof.Spec
import proofs.«424267_j84043920048504_3_alg».proof.Proof.LibGather

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.Spec

/-- The start index of anchor `a`: the anchor's index, moved up by the number of rows when negative. -/
theorem v5_val (x4 : TIds.Idx → BitVec 32) (a : Fin 32) :
    Read.val_main_v5 (F := Ideal) x4 (ix2 a (0 : Fin 1)) = wrapIdx (x4 (ix1 a)) := by
  rw [Read.val_main_v5_apply, Read.val_main_v4_apply, Read.val_main_v1_apply, Read.val_main_v3_apply,
    Read.val_main_v0_apply, Read.val_main_v2_apply, Read.val_main_c_apply, Read.val_main_c_0_apply]
  have e : Read.idx_main_v5 (ix2 a (0 : Fin 1)) = ix1 a := funext fun b => Fin.ext (by match b with | ⟨0, _⟩ => rfl)
  rw [e]
  rfl

/-- The gathered rows are the anchors. -/
theorem v6_val (x0 : TEmb.Idx → EReal) (x4 : TIds.Idx → BitVec 32) (a : Fin 32) (d : Fin 128) :
    Read.val_main_v6 (F := Ideal) x0 x4 (ix2 a d) = anchors x0 x4 (ix2 a d) := by
  unfold Read.val_main_v6
  rw [Cert.LibGather.gather_rows_apply (by norm_num) _ rfl rfl rfl rfl rfl rfl rfl]
  show _ = x0 (ix2 (anchorRow x4 a) d)
  refine congrArg x0 (congrArg (fun r => ix2 r d) (Fin.ext ?_))
  show min (Read.val_main_v5 (F := Ideal) x4 (ix2 a (0 : Fin 1))).toInt.toNat (30000 - 1)
    = min (wrapIdx (x4 (ix1 a))).toInt.toNat 29999
  rw [v5_val]

/-- The tile of the embeddings: entry `(n, j, d)` is row `(32 n + j) mod 30000`, column `d`. -/
theorem v16_val (x0 : TEmb.Idx → EReal) (n : Fin 30000) (j : Fin 32) (d : Fin 128) :
    Read.val_main_v16 (F := Ideal) x0 (ix3 n j d) = x0 (ix2 (selfRow n j) d) := by
  rw [Read.val_main_v16_apply, Read.val_main_v15_apply, Read.val_main_v14_apply, Read.val_main_v13_apply]
  refine congrArg x0 (funext fun a => Fin.ext ?_)
  have hn := n.isLt
  have hj := j.isLt
  have hd := d.isLt
  match a with
  | ⟨0, _⟩ =>
    show ((((0 * 30000 + ((((n.val * 32 + j.val) * 128 + d.val) / 128 * 128 + ((n.val * 32 + j.val) * 128 + d.val) % 128) / 128 % 30000)) * 1 + 0) * 128
      + ((((n.val * 32 + j.val) * 128 + d.val) / 128 * 128 + ((n.val * 32 + j.val) * 128 + d.val) % 128) % 128)) / 128)
      = (32 * n.val + j.val) % 30000
    omega
  | ⟨1, _⟩ =>
    show ((((0 * 30000 + ((((n.val * 32 + j.val) * 128 + d.val) / 128 * 128 + ((n.val * 32 + j.val) * 128 + d.val) % 128) / 128 % 30000)) * 1 + 0) * 128
      + ((((n.val * 32 + j.val) * 128 + d.val) / 128 * 128 + ((n.val * 32 + j.val) * 128 + d.val) % 128) % 128)) % 128)
      = d.val
    omega

/-- The reference's last stage at node `j 0`, column `j 1`. -/
theorem ref_val (x0 : TEmb.Idx → EReal) (x1 : TDist.Idx → EReal) (x2 : TW.Idx → EReal) (x3 : TB.Idx → EReal)
    (x4 : TIds.Idx → BitVec 32) (j : TEmb.Idx) :
    Cert.ReferenceIdeal.Read.val_main_v27 (F := Ideal) x0 x1 x2 x3 x4 j
      = refOut (anchors x0 x4) x0 x1 x2 x3 (j 0) (j 1) := by
  obtain ⟨n, k, rfl⟩ : ∃ n k, j = ix2 n k := ⟨j 0, j 1, eq_ix2 j⟩
  show _ = refOut (anchors x0 x4) x0 x1 x2 x3 n k
  unfold refOut
  rw [Read.val_main_v27_apply, Read.val_main_v26_apply, Read.val_main_cst_1_apply, Read.val_main_v25_apply,
    Read.val_main_cst_apply, Ideal.hostDivf_def, Ideal.ofBits_def, Ideal.ofBits_def, Ideal.ofBits_zero_f32]
  refine congrArg (fun s => Ideal.div (0 + s) c32) (Finset.sum_congr rfl fun a _ => ?_)
  rw [Read.val_main_v24_apply, Read.val_main_v21_apply, Ideal.addf_def, Ideal.addf_def,
    Read.val_main_v19_apply, Read.val_main_v20_apply, Read.val_main_v23_apply, Read.val_main_v22_apply]
  congr 1
  congr 1
  · refine Finset.sum_congr rfl fun d _ => ?_
    rw [Read.val_main_v12_apply, Ideal.mulf_def, Read.val_main_v10_apply, Read.val_main_v7_apply,
      Read.val_main_v11_apply, Read.val_main_v9_apply, Read.val_main_v8_apply, Read.val_main_v17_apply]
    have e6 : Read.idx_main_v7 (Read.idx_main_v10 (Read.lidx_main_v19 (Read.idx_main_v25 (ix2 n k) a) d)) = ix2 a d :=
      funext fun b => Fin.ext (by match b with | ⟨0, _⟩ => rfl | ⟨1, _⟩ => rfl)
    have e1 : Read.idx_main_v8 (Read.idx_main_v9 (Read.idx_main_v11 (Read.lidx_main_v19 (Read.idx_main_v25 (ix2 n k) a) d)))
        = ix2 a n := funext fun b => Fin.ext (by match b with | ⟨0, _⟩ => rfl | ⟨1, _⟩ => rfl)
    have e2 : Read.idx_main_v17 (Read.ridx_main_v19 (Read.idx_main_v25 (ix2 n k) a) d) = ix2 k (colL d) :=
      funext fun b => Fin.ext (by match b with | ⟨0, _⟩ => rfl | ⟨1, _⟩ => rfl)
    rw [e6, e1, e2, v6_val]
  · refine Finset.sum_congr rfl fun d _ => ?_
    rw [Read.val_main_v18_apply]
    have e16 : Read.lidx_main_v20 (Read.idx_main_v25 (ix2 n k) a) d = ix3 n a d :=
      funext fun b => Fin.ext (by match b with | ⟨0, _⟩ => rfl | ⟨1, _⟩ => rfl | ⟨2, _⟩ => rfl)
    have e2 : Read.idx_main_v18 (Read.ridx_main_v20 (Read.idx_main_v25 (ix2 n k) a) d) = ix2 k (colR d) :=
      funext fun b => Fin.ext (by match b with | ⟨0, _⟩ => rfl | ⟨1, _⟩ => rfl)
    rw [e16, e2, v16_val]
  · exact congrArg x3 (funext fun b => Fin.ext (by match b with | ⟨0, _⟩ => rfl))

end Cert.ReferenceIdeal.RefValue

end
-- ==== Proof.PreDecode.lean ====
/-
  What the precondition says of the inputs: every float entry is a real number, and every anchor index lies in
  `[-30000, 30000)`.
-/
import proofs.«424267_j84043920048504_3_alg».proof.Pre_finite_inputs
import proofs.«424267_j84043920048504_3_alg».proof.Proof.Gen.Pre_finite_inputs
import proofs.«424267_j84043920048504_3_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Spec

/-- A rank-0 array has one index. -/
instance : Subsingleton Cert.Pre_finite_inputs.S_.Idx := ⟨fun a b => funext fun d => d.elim0⟩

/-- The bound the absolute values are compared with is `+∞`. -/
theorem top_eq : Ideal.ofBits .f32 0x7F800000#32 = (⊤ : EReal) := by
  simp [Ideal.ofBits, Ideal.ieee]

/-- An extended real with `max a (-a) < +∞` is neither infinity: it is a real number. -/
theorem real_of_abs_lt (a : EReal) (h : Ideal.cmp .olt (max a (-a)) (Ideal.ofBits .f32 0x7F800000#32) = 1#1) :
    ∃ r : ℝ, a = (r : EReal) := by
  rw [top_eq] at h
  induction a using EReal.rec with
  | bot => simp [Ideal.cmp] at h
  | coe r => exact ⟨r, rfl⟩
  | top => simp [Ideal.cmp] at h

/-- The precondition all ones: the four float inputs hold real numbers and the anchor indices are in range. -/
theorem decode [Cert.Pre_finite_inputs.Facts]
    (x0 : TEmb.Idx → EReal) (x1 : TDist.Idx → EReal) (x2 : TW.Idx → EReal) (x3 : TB.Idx → EReal)
    (x4 : TIds.Idx → BitVec 32)
    (h : Cert.Pre_finite_inputs.fn (F := Ideal) x0 x1 x2 x3 x4 = fun _ => 1#1) :
    AllReal x0 ∧ AllReal x1 ∧ AllReal x2 ∧ AllReal x3 ∧ IdsInRange x4 := by
  have e := congrFun h ValueIdx.ix0
  dsimp only [Cert.Pre_finite_inputs.fn, Cert.Pre_finite_inputs.fn_part1] at e
  -- a conjunction of six one-bit words is 1 exactly when each of them is
  simp only [andi, IntOp.andi_eq_one] at e
  obtain ⟨⟨⟨⟨⟨e0, e1⟩, e2⟩, e3⟩, e4⟩, e5⟩ := e
  refine ⟨fun i => ?_, fun i => ?_, fun i => ?_, fun i => ?_, fun a => ⟨?_, ?_⟩⟩
  -- each conjunction over a whole array gives its element at every index
  · exact real_of_abs_lt _ (Host.reduce_andi_all _ _ _ _ _ e0 i)
  · exact real_of_abs_lt _ (Host.reduce_andi_all _ _ _ _ _ e1 i)
  · exact real_of_abs_lt _ (Host.reduce_andi_all _ _ _ _ _ e2 i)
  · exact real_of_abs_lt _ (Host.reduce_andi_all _ _ _ _ _ e3 i)
  -- the word 4294937296 is -30000 read signed
  · have c : IntOp.cmpi .sge (x4 (ix1 a)) 4294937296#32 = 1#1 := Host.reduce_andi_all _ _ _ _ _ e4 (ix1 a)
    have c' := IntOp.cmpi_sge.1 c
    have k : (4294937296#32 : BitVec 32).toInt = -30000 := by decide
    rw [k] at c'
    exact c'
  · have c : IntOp.cmpi .slt (x4 (ix1 a)) 30000#32 = 1#1 := Host.reduce_andi_all _ _ _ _ _ e5 (ix1 a)
    have c' := IntOp.cmpi_slt.1 c
    have k : (30000#32 : BitVec 32).toInt = 30000 := by decide
    rw [k] at c'
    exact c'

end Cert.PreDecode

end
-- ==== Proof.Algebra.lean ====
/-
  The algebraic law that joins the two programs: on real entries, the mean over the 32 anchors of the hidden
  layer is the hidden layer of the means.
-/
import proofs.«424267_j84043920048504_3_alg».proof.Proof.Spec
import Mathlib.Algebra.BigOperators.Fin
import Mathlib.Algebra.BigOperators.Ring.Finset
import Mathlib.Tactic.Ring
import Mathlib.Tactic.NormNum

noncomputable section

open scoped BigOperators

namespace Cert.Algebra

open Idealize.ShloMosaic Idealize.ShloMosaic.ValueIdx Cert.Spec

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The divisor both programs spell denotes the real number 32. -/
theorem c32_eq : c32 = ((32 : ℝ) : EReal) := by
  simp [c32, Ideal.ofBits, Ideal.ieee, -EReal.coe_mul]; norm_num

/-- The first 16 rows of the window of node `n` are the block `2 p mod 1875`, `p = n mod 1875`:
    `32 n = 30000 e + 16 (2 p mod 1875)` for a natural `e`. -/
theorem selfRow_lo (n : Fin 30000) (t : Fin 16) :
    selfRow n (Fin.castAdd 16 t) = blockRow (perm (posOf n)) t := by
  apply Fin.ext
  have hn := n.isLt
  have ht := t.isLt
  simp only [selfRow, blockRow, perm, posOf, Fin.coe_castAdd]
  omega

/-- The last 16 rows of the window of node `n` are the cyclic successor of the block `2 p mod 1875`. -/
theorem selfRow_hi (n : Fin 30000) (t : Fin 16) :
    selfRow n (Fin.natAdd 16 t) = blockRow (nextBlk (perm (posOf n))) t := by
  apply Fin.ext
  have hn := n.isLt
  have ht := t.isLt
  simp only [selfRow, blockRow, perm, nextBlk, posOf, Fin.coe_natAdd]
  omega

/-- The sum over the 32 rows of a window is the sum over its two blocks. -/
theorem sum_selfRow {M : Type*} [AddCommMonoid M] (f : Fin 30000 → M) (n : Fin 30000) :
    ∑ j : Fin 32, f (selfRow n j)
      = (∑ t : Fin 16, f (blockRow (perm (posOf n)) t))
        + ∑ t : Fin 16, f (blockRow (nextBlk (perm (posOf n))) t) := by
  have h := Fin.sum_univ_add (a := 16) (b := 16) (fun j : Fin (16 + 16) => f (selfRow n j))
  simp only [selfRow_lo, selfRow_hi] at h
  exact h

/-- The identity on the reals: the mean over the anchors, pushed inside the two linear maps. -/
theorem real_identity (Ar : TAnch.Idx → ℝ) (x0r : TEmb.Idx → ℝ) (x1r : TDist.Idx → ℝ) (Wr : TW.Idx → ℝ)
    (br : TB.Idx → ℝ) (n : Fin 30000) (k : Fin 128) :
    (∑ a : Fin 32, x1r (ix2 a n) * ((∑ d : Fin 128, Ar (ix2 a d) * Wr (ix2 k (colL d))) * (1 / 32 : ℝ)))
      + ((∑ d : Fin 128,
            (((∑ t : Fin 16, x0r (ix2 (blockRow (perm (posOf n)) t) d))
              + (∑ t : Fin 16, x0r (ix2 (blockRow (nextBlk (perm (posOf n))) t) d))) * (1 / 32 : ℝ))
              * Wr (ix2 k (colR d)))
          + br (ix1 k))
    = (∑ j : Fin 32,
        (((∑ d : Fin 128, (Ar (ix2 j d) * x1r (ix2 j n)) * Wr (ix2 k (colL d)))
          + (∑ d : Fin 128, x0r (ix2 (selfRow n j) d) * Wr (ix2 k (colR d)))) + br (ix1 k))) * (1 / 32 : ℝ) := by
  -- the message branch, anchor by anchor
  have hP : ∀ j : Fin 32, (∑ d : Fin 128, (Ar (ix2 j d) * x1r (ix2 j n)) * Wr (ix2 k (colL d)))
      = x1r (ix2 j n) * ∑ d : Fin 128, Ar (ix2 j d) * Wr (ix2 k (colL d)) := by
    intro j
    rw [Finset.mul_sum]
    exact Finset.sum_congr rfl (fun d _ => by ring)
  -- the self branch: exchange the two sums and split the window into its two blocks
  have hQ : (∑ j : Fin 32, ∑ d : Fin 128, x0r (ix2 (selfRow n j) d) * Wr (ix2 k (colR d)))
      = ∑ d : Fin 128,
          ((∑ t : Fin 16, x0r (ix2 (blockRow (perm (posOf n)) t) d))
            + (∑ t : Fin 16, x0r (ix2 (blockRow (nextBlk (perm (posOf n))) t) d))) * Wr (ix2 k (colR d)) := by
    rw [Finset.sum_comm]
    refine Finset.sum_congr rfl (fun d _ => ?_)
    rw [← Finset.sum_mul, sum_selfRow (fun r => x0r (ix2 r d)) n]
  rw [Finset.sum_add_distrib, Finset.sum_add_distrib, hQ, Finset.sum_const, Finset.card_univ,
    Fintype.card_fin, nsmul_eq_mul]
  simp only [hP]
  rw [add_mul, add_mul, Finset.sum_mul, Finset.sum_mul, add_assoc]
  congr 1
  · exact Finset.sum_congr rfl (fun a _ => by ring)
  · congr 1
    · exact Finset.sum_congr rfl (fun d _ => by ring)
    · push_cast; ring

/-- On real entries the kernel's value and the reference's value agree at every node and column. -/
theorem kernelOut_eq_refOut (A : TAnch.Idx → EReal) (x0 : TEmb.Idx → EReal) (x1 : TDist.Idx → EReal)
    (W : TW.Idx → EReal) (b : TB.Idx → EReal)
    (hA : AllReal A) (h0 : AllReal x0) (h1 : AllReal x1) (hW : AllReal W) (hb : AllReal b)
    (n : Fin 30000) (k : Fin 128) :
    kernelOut A x0 x1 W b n k = refOut A x0 x1 W b n k := by
  choose Ar hAr using hA
  choose x0r h0r using h0
  choose x1r h1r using h1
  choose Wr hWr using hW
  choose br hbr using hb
  have h32 : (32 : ℝ) ≠ 0 := by norm_num
  simp only [kernelOut, refOut, anchW, selfOut, selfMean, blockSum, c32_eq, Ideal.div_coe h32, zero_add,
    hAr, h0r, h1r, hWr, hbr]
  simp only [← EReal.coe_mul, ← EReal.coe_add, ← coe_sum]
  exact congrArg _ (real_identity Ar x0r x1r Wr br n k)

end Cert.Algebra

end
-- ==== Proof.lean ====
/-
  The kernel against its reference, on the extended reals.

  Inputs: embeddings x0 : [30000, 128], distances x1 : [32, 30000], a weight W : [128, 256], a bias b : [128] and
  32 anchor indices x4. A : [32, 128] is the 32 rows of x0 the anchor indices select (a negative index moved up by
  30000, the row clamped into the table).

  The reference computes, at node n and column k, the mean over the 32 anchors j of
    ∑_d (A j d · x1 j n) · W k d  +  ∑_d x0 ((32 n + j) mod 30000) d · W k (128 + d)  +  b k.
  The kernel computes, with p = n mod 1875 and S q d the sum of rows 16 q … 16 q + 15 of column d of x0,
    ∑_a x1 a n · ((∑_d A a d · W k d) / 32)
      +  ∑_d ((S (2 p mod 1875) d + S ((2 p mod 1875 + 1) mod 1875) d) / 32) · W k (128 + d)  +  b k.

  When every float entry is a real number and every anchor index lies in [-30000, 30000) the two agree: the mean
  over the anchors is linear, so it passes inside both sums over d, and the 32 consecutive rows starting at
  32 n mod 30000 are two consecutive 16-row blocks, block 2 p mod 1875 and its cyclic successor.
-/
import proofs.«424267_j84043920048504_3_alg».proof.Defs
import proofs.«424267_j84043920048504_3_alg».proof.Proof.Gen.Kernel
import proofs.«424267_j84043920048504_3_alg».proof.Proof.Gen.Kernel.Skeleton
import proofs.«424267_j84043920048504_3_alg».proof.Proof.Gen.Kernel.Launch
import proofs.«424267_j84043920048504_3_alg».proof.Proof.Gen.Kernel.Points
import proofs.«424267_j84043920048504_3_alg».proof.Proof.Gen.Kernel.Frame
import proofs.«424267_j84043920048504_3_alg».proof.Proof.Gen.KernelIdeal
import proofs.«424267_j84043920048504_3_alg».proof.Proof.Gen.KernelIdeal.Skeleton
import proofs.«424267_j84043920048504_3_alg».proof.Proof.Gen.KernelIdeal.Launch
import proofs.«424267_j84043920048504_3_alg».proof.Proof.Gen.KernelIdeal.Points
import proofs.«424267_j84043920048504_3_alg».proof.Proof.Gen.KernelIdeal.Frame
import proofs.«424267_j84043920048504_3_alg».proof.Proof.Gen.ReferenceIdeal
import proofs.«424267_j84043920048504_3_alg».proof.Proof.Gen.Pre_finite_inputs
import proofs.«424267_j84043920048504_3_alg».proof.Proof.Gen.ReferenceIdeal.Run
import proofs.«424267_j84043920048504_3_alg».proof.Proof.Gen.ReferenceIdeal.Read
import Idealize.ShloMosaic.Adequacy
import Idealize.ShloMosaic.Init
import proofs.«424267_j84043920048504_3_alg».proof.Proof.KernelValue
import proofs.«424267_j84043920048504_3_alg».proof.Proof.RefValue
import proofs.«424267_j84043920048504_3_alg».proof.Proof.PreDecode
import proofs.«424267_j84043920048504_3_alg».proof.Proof.Algebra

noncomputable section

namespace Cert.Proof.Claims

open Idealize.ShloMosaic Idealize.SL.Sem Cert.Spec Cert.KernelIdeal.Bridge

/-- The kernel runs and leaves its arguments unchanged. -/
theorem frame_Kernel : Cert.frame_Kernel := fun m ρ _ => Cert.Kernel.Gen.frame m ρ

/-- The kernel on the extended reals runs and leaves its arguments unchanged. -/
theorem frame_KernelIdeal : Cert.frame_KernelIdeal := fun m ρ _ => Cert.KernelIdeal.Gen.frame m ρ

/-- The reference on the extended reals runs and leaves its arguments unchanged. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- No operation of the kernel is rewritten on the way to the extended reals. -/
theorem preserves : Cert.preserves_Kernel_KernelIdeal := trivial

/-- Rows selected from an array of real numbers are real numbers. -/
theorem anchors_real (x0 : TEmb.Idx → EReal) (x4 : TIds.Idx → BitVec 32) (h0 : AllReal x0) :
    AllReal (anchors x0 x4) := fun i => h0 (ValueIdx.ix2 (anchorRow x4 (i 0)) (i 1))

/-- On real inputs with anchor indices in range both programs end at the same array: the kernel at `kernelOut`,
    the reference at `refOut`, and the two are equal at every node and column. -/
theorem algebraic : Cert.algebraic_KernelIdeal_ReferenceIdeal := by
  intro m ρ m' ρ' hpre hagree
  have hd : ∀ c : Dev Cert.KernelIdeal.nD,
      AllReal (a0 m c) ∧ AllReal (a1 m c) ∧ AllReal (a2 m c) ∧ AllReal (a3 m c) ∧ IdsInRange (a4 m c) :=
    fun c => Cert.PreDecode.decode _ _ _ _ _ (hpre c)
  refine ⟨fun c => kernelArr (anchors (a0 m c) (a4 m c)) (a0 m c) (a1 m c) (a2 m c) (a3 m c),
    Cert.KernelIdeal.KernelValue.kernel_run m ρ (fun c => (hd c).2.2.2.2), ?_⟩
  refine (θ_run Cert.ReferenceIdeal.defs _ _).mono (fun _ h c => ⟨(h c).1.trans ?_, (h c).2⟩)
    (Cert.ReferenceIdeal.Value.run (F := Ideal) m' ρ')
  obtain ⟨h0, h1, hW, hb, -⟩ := hd c
  rw [Cert.ReferenceIdeal.Read.val_main_v27_eq, (hagree c).1, (hagree c).2.1, (hagree c).2.2.1, (hagree c).2.2.2.1,
    (hagree c).2.2.2.2]
  funext j
  rw [Cert.ReferenceIdeal.RefValue.ref_val]
  symm
  exact Cert.Algebra.kernelOut_eq_refOut _ _ _ _ _ (anchors_real _ _ h0) h0 h1 hW hb (j 0) (j 1)

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_Kernel, Claims.frame_KernelIdeal, Claims.frame_ReferenceIdeal, Claims.preserves, Claims.algebraic⟩

end Cert.Proof

end
